-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4096 : Shape := ⟨1, ![4096]⟩
abbrev S8 : Shape := ⟨1, ![8]⟩
abbrev S8x2048x2048 : Shape := ⟨3, ![8, 2048, 2048]⟩
abbrev S8x2048 : Shape := ⟨2, ![8, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S8 : S_.BroadcastsInDim S8 (![] : Fin 0 → Fin S8.rank)
  reducesTo_S8_S_d0 : S8.ReducesTo [0] S_
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S8x2048 : S_.BroadcastsInDim S8x2048 (![] : Fin 0 → Fin S8x2048.rank)
  reducesTo_S8x2048_S_d0_1 : S8x2048.ReducesTo [0, 1] S_

variable [Facts]

def fn_part1 {F : FTy → Type} [FloatOps F] (main_v13 : IVec S_ 1) (main_v16 : IVec S8x2048 1) : IVec S_ 1 :=
  let main_c_5 : IVec S_ 1 := constantI S_ 1 1#1
  let main_v17 : IVec S_ 1 := (fun x v => Host.reduce IntOp.andi x v reducesTo_S8x2048_S_d0_1 h_S_) main_v16 main_c_5
  let main_v18 : IVec S_ 1 := andi main_v13 main_v17
  main_v18

def fn {F : FTy → Type} [FloatOps F] (main_arg0 : FVec F S4096x2048 .f32) (main_arg1 : IVec S4096 1) (main_arg2 : FVec F S8 .f32) (main_arg3 : FVec F S8x2048x2048 .f32) (main_arg4 : FVec F S8x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S8 .f32 := Host.absf main_arg2
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S8x2048x2048 .f32 := Host.absf main_arg3
  let main_cst_2 : FVec F S_ .f32 := constant S_ .f32 0x7F800000#32
  let main_v10 : FVec F S8x2048x2048 .f32 := broadcastInDim S8x2048x2048 ![] bcast_S_S8x2048x2048 main_cst_2
  let main_v11 : IVec S8x2048x2048 1 := cmpf .olt main_v9 main_v10
  let main_c_3 : IVec S_ 1 := constantI S_ 1 1#1
  let main_v12 : IVec S_ 1 := (fun x v => Host.reduce IntOp.andi x v reducesTo_S8x2048x2048_S_d0_1_2 h_S_) main_v11 main_c_3
  let main_v13 : IVec S_ 1 := andi main_v8 main_v12
  let main_v14 : FVec F S8x2048 .f32 := Host.absf main_arg4
  let main_cst_4 : FVec F S_ .f32 := constant S_ .f32 0x7F800000#32
  let main_v15 : FVec F S8x2048 .f32 := broadcastInDim S8x2048 ![] bcast_S_S8x2048 main_cst_4
  let main_v16 : IVec S8x2048 1 := cmpf .olt main_v14 main_v15
  fn_part1 (F := F) main_v13 main_v16
-- ==== Kernel.lean ====
abbrev S4096x2048 : Shape := ⟨2, ![4096, 2048]⟩
abbrev S4096 : Shape := ⟨1, ![4096]⟩
abbrev S8 : Shape := ⟨1, ![8]⟩
abbrev S8x2048x2048 : Shape := ⟨3, ![8, 2048, 2048]⟩
abbrev S8x2048 : Shape := ⟨2, ![8, 2048]⟩
abbrev S4096x1 : Shape := ⟨2, ![4096, 1]⟩
abbrev S1x8 : Shape := ⟨2, ![1, 8]⟩
abbrev S8x1x2048 : Shape := ⟨3, ![8, 1, 2048]⟩
abbrev S1x2048x512 : Shape := ⟨3, ![1, 2048, 512]⟩
abbrev S1x1x512 : Shape := ⟨3, ![1, 1, 512]⟩
abbrev S4096x512 : Shape := ⟨2, ![4096, 512]⟩
abbrev S1x1x8 : Shape := ⟨3, ![1, 1, 8]⟩
abbrev S1 : Shape := ⟨1, ![1]⟩
abbrev S1x1x1 : Shape := ⟨3, ![1, 1, 1]⟩
abbrev S2048x512 : Shape := ⟨2, ![2048, 512]⟩
abbrev S1x512 : Shape := ⟨2, ![1, 512]⟩

abbrev nBuf : Space → Nat
  | .hbm => 12
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S4096, .i1⟩
  | .hbm, ⟨2, _⟩ => ⟨S8, .f32⟩
  | .hbm, ⟨3, _⟩ => ⟨S8x2048x2048, .f32⟩
  | .hbm, ⟨4, _⟩ => ⟨S8x2048, .f32⟩
  | .hbm, ⟨5, _⟩ => ⟨S4096x2048, .bf16⟩
  | .hbm, ⟨6, _⟩ => ⟨S8x2048x2048, .bf16⟩
  | .hbm, ⟨7, _⟩ => ⟨S4096x1, .i1⟩
  | .hbm, ⟨8, _⟩ => ⟨S1x8, .f32⟩
  | .hbm, ⟨9, _⟩ => ⟨S8x1x2048, .f32⟩
  | .hbm, ⟨10, _⟩ => ⟨S4096x1, .i32⟩
  | .hbm, ⟨11, _⟩ => ⟨S4096x2048, .f32⟩
  | .local _ .vmem, ⟨0, _⟩ => ⟨S4096x2048, .bf16⟩
  | .local _ .vmem, ⟨1, _⟩ => ⟨S4096x1, .i32⟩
  | .local _ .vmem, ⟨2, _⟩ => ⟨S1x8, .f32⟩
  | .local _ .vmem, ⟨3, _⟩ => ⟨S1x2048x512, .bf16⟩
  | .local _ .vmem, ⟨4, _⟩ => ⟨S1x2048x512, .bf16⟩
  | .local _ .vmem, ⟨5, _⟩ => ⟨S1x1x512, .f32⟩
  | .local _ .vmem, ⟨6, _⟩ => ⟨S1x1x512, .f32⟩
  | .local _ .vmem, ⟨7, _⟩ => ⟨S4096x512, .f32⟩
  | .local _ .vmem, ⟨8, _⟩ => ⟨S4096x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v46 : BitVec 1 := Scalar.cmpi .eq arg1 c0_i32
  let v47 : BitVec 32 := Scalar.extui v46
  let c0_i32_17 : BitVec 32 := 0#32
  let v48 : BitVec 1 := Scalar.cmpi .ne v47 c0_i32_17
  v48

def k0_cond2 (i : grid0.Coords) : BitVec 1 :=
  let arg1 : BitVec 32 := BitVec.ofNat 32 (i 1).val
  let c0_i32_18 : BitVec 32 := 0#32
  let v49 : BitVec 1 := Scalar.cmpi .sgt arg1 c0_i32_18
  let v50 : BitVec 32 := Scalar.extui v49
  let c0_i32_19 : BitVec 32 := 0#32
  let v51 : BitVec 1 := Scalar.cmpi .ne v50 c0_i32_19
  v51

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S4096x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S4096x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bitsLt_bf16_f32 : FTy.bits .bf16 < FTy.bits .f32
  shapeCasts_S4096_S4096x1 : S4096.ShapeCasts S4096x1
  shapeCasts_S8_S1x8 : S8.ShapeCasts S1x8
  shapeCasts_S8x2048_S8x1x2048 : S8x2048.ShapeCasts S8x1x2048
  natLt_1_32 : 1 < 32
  inb_S1x8_S1x8_0_0 : ∀ a, (![0, 0] : Fin 2 → Nat) a + S1x8.size a ≤ S1x8.size a
  h_S1x8 : 0 < S1x8.numel
  shapeCasts_S1x8_S1x8 : S1x8.ShapeCasts S1x8
  shapeCasts_S1x8_S1x1x8 : S1x8.ShapeCasts S1x1x8
  reduces_S1x1x8_S1 : S1x1x8.Reduces [1, 2] S1
  shapeCasts_S1_S1x1x1 : S1.ShapeCasts S1x1x1
  inpos_S1x1x1_p0_0_0 : ∀ a, (![0, 0, 0] : Fin 3 → Nat) a < S1x1x1.size a
  iota_S1x8_d1_w32 : S1x8.Iotas .tc 32 [1]
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x512 : S4096x1.Broadcasts S4096x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S4096x512 : S1x512.Broadcasts S4096x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  dot_S4096x2048_S2048x512_S4096x512_1_0_0_1_n_n_wf : DotDims.WF S4096x2048 S2048x512 S4096x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x2048.size a ≤ S4096x2048.size a
  hwx0_0 : ∀ i : grid0.Coords, EltTy.bits .bf16 = 32 ∨ (Rect.block (s := S4096x2048) S4096x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S4096x1.size a
  hwx0_1 : ∀ i : grid0.Coords, EltTy.bits .i32 = 32 ∨ (Rect.block (s := S4096x1) S4096x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8.size a ≤ S1x8.size a
  hwx0_2 : ∀ i : grid0.Coords, EltTy.bits .f32 = 32 ∨ (Rect.block (s := S1x8) S1x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x512.size a ≤ S8x2048x2048.size a
  hwx0_3 : ∀ i : grid0.Coords, EltTy.bits .bf16 = 32 ∨ (Rect.block (s := S8x2048x2048) S1x2048x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512.size a ≤ S8x1x2048.size a
  hwx0_4 : ∀ i : grid0.Coords, EltTy.bits .f32 = 32 ∨ (Rect.block (s := S8x1x2048) S1x1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x512.size a ≤ S4096x2048.size a
  hwx0_5 : ∀ i : grid0.Coords, EltTy.bits .f32 = 32 ∨ (Rect.block (s := S4096x2048) S4096x512.size (cc0_transform_5 i) (hinb0_5 i)).WholeWords (EltTy.packing .f32)

variable [Facts₀]

def dot_S4096x2048_S2048x512_S4096x512_1_0_0_1_n_n : DotDims S4096x2048 S2048x512 S4096x512 where
  lhsContracting := [1]
  rhsContracting := [0]
  lhsNonContracting := [0]
  rhsNonContracting := [1]
  lhsBatch := []
  rhsBatch := []
  wf := dot_S4096x2048_S2048x512_S4096x512_1_0_0_1_n_n_wf

abbrev win0_0 : Pipeline.Window sig grid0 :=
  Pipeline.Window.ofSpec (Memref.whole main_call0_v0) S4096x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v5) S4096x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v3) S1x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S1x2048x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v4) S1x1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S4096x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond1 i == 1#1) && !(k0_cond2 i == 1#1) | ⟨_ + 6, h⟩ => absurd h (Nat.not_lt.2 (Nat.le_add_left _ _))

class Facts : Prop extends Facts₀ where

variable [Facts]
-- ==== ReferenceIdeal.lean ====
abbrev S4096x2048 : Shape := ⟨2, ![4096, 2048]⟩
abbrev S4096 : Shape := ⟨1, ![4096]⟩
abbrev S8 : Shape := ⟨1, ![8]⟩
abbrev S8x2048x2048 : Shape := ⟨3, ![8, 2048, 2048]⟩
abbrev S8x2048 : Shape := ⟨2, ![8, 2048]⟩
abbrev S_ : Shape := ⟨0, ![]⟩
abbrev S1 : Shape := ⟨1, ![1]⟩
abbrev S4096x1 : Shape := ⟨2, ![4096, 1]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩

abbrev nBuf : Space → Nat
  | .hbm => 152
  | .vmem => 0
  | .smem => 0
  | _ => 0

abbrev hbmTy0_0 (i : Nat) : BufTy := match i % 128 with
  | 0 => ⟨S4096x2048, .f32⟩
  | 1 => ⟨S4096, .i1⟩
  | 2 => ⟨S8, .f32⟩
  | 3 => ⟨S8x2048x2048, .f32⟩
  | 4 => ⟨S8x2048, .f32⟩
  | 5 => ⟨S_, .f32⟩
  | 6 => ⟨S_, .f32⟩
  | 7 => ⟨S_, .f32⟩
  | 8 => ⟨S_, .f32⟩
  | 9 => ⟨S1, .f32⟩
  | 10 => ⟨S8, .f32⟩
  | 11 => ⟨S8, .f32⟩
  | 12 => ⟨S8, .f32⟩
  | 13 => ⟨S_, .f32⟩
  | 14 => ⟨S_, .f32⟩
  | 15 => ⟨S1, .f32⟩
  | 16 => ⟨S8, .f32⟩
  | 17 => ⟨S8, .f32⟩
  | 18 => ⟨S4096x1, .i1⟩
  | 19 => ⟨S4096x1, .f32⟩
  | 20 => ⟨S4096x2048, .f32⟩
  | 21 => ⟨S4096x2048, .f32⟩
  | 22 => ⟨S_, .f32⟩
  | 23 => ⟨S4096x2048, .f32⟩
  | 24 => ⟨S1x2048x2048, .f32⟩
  | 25 => ⟨S2048x2048, .f32⟩
  | 26 => ⟨S4096x2048, .f32⟩
  | 27 => ⟨S1x2048, .f32⟩
  | 28 => ⟨S2048, .f32⟩
  | 29 => ⟨S1x2048, .f32⟩
  | 30 => ⟨S4096x2048, .f32⟩
  | 31 => ⟨S4096x2048, .f32⟩
  | 32 => ⟨S_, .f32⟩
  | 33 => ⟨S4096x2048, .f32⟩
  | 34 => ⟨S4096x2048, .f32⟩
  | 35 => ⟨S1, .f32⟩
  | 36 => ⟨S_, .f32⟩
  | 37 => ⟨S4096x2048, .f32⟩
  | 38 => ⟨S4096x2048, .f32⟩
  | 39 => ⟨S4096x2048, .f32⟩
  | 40 => ⟨S1x2048x2048, .f32⟩
  | 41 => ⟨S2048x2048, .f32⟩
  | 42 => ⟨S4096x2048, .f32⟩
  | 43 => ⟨S1x2048, .f32⟩
  | 44 => ⟨S2048, .f32⟩
  | 45 => ⟨S1x2048, .f32⟩
  | 46 => ⟨S4096x2048, .f32⟩
  | 47 => ⟨S4096x2048, .f32⟩
  | 48 => ⟨S_, .f32⟩
  | 49 => ⟨S4096x2048, .f32⟩
  | 50 => ⟨S4096x2048, .f32⟩
  | 51 => ⟨S1, .f32⟩
  | 52 => ⟨S_, .f32⟩
  | 53 => ⟨S4096x2048, .f32⟩
  | 54 => ⟨S4096x2048, .f32⟩
  | 55 => ⟨S4096x2048, .f32⟩
  | 56 => ⟨S1x2048x2048, .f32⟩
  | 57 => ⟨S2048x2048, .f32⟩
  | 58 => ⟨S4096x2048, .f32⟩
  | 59 => ⟨S1x2048, .f32⟩
  | 60 => ⟨S2048, .f32⟩
  | 61 => ⟨S1x2048, .f32⟩
  | 62 => ⟨S4096x2048, .f32⟩
  | 63 => ⟨S4096x2048, .f32⟩
  | 64 => ⟨S_, .f32⟩
  | 65 => ⟨S4096x2048, .f32⟩
  | 66 => ⟨S4096x2048, .f32⟩
  | 67 => ⟨S1, .f32⟩
  | 68 => ⟨S_, .f32⟩
  | 69 => ⟨S4096x2048, .f32⟩
  | 70 => ⟨S4096x2048, .f32⟩
  | 71 => ⟨S4096x2048, .f32⟩
  | 72 => ⟨S1x2048x2048, .f32⟩
  | 73 => ⟨S2048x2048, .f32⟩
  | 74 => ⟨S4096x2048, .f32⟩
  | 75 => ⟨S1x2048, .f32⟩
  | 76 => ⟨S2048, .f32⟩
  | 77 => ⟨S1x2048, .f32⟩
  | 78 => ⟨S4096x2048, .f32⟩
  | 79 => ⟨S4096x2048, .f32⟩
  | 80 => ⟨S_, .f32⟩
  | 81 => ⟨S4096x2048, .f32⟩
  | 82 => ⟨S4096x2048, .f32⟩
  | 83 => ⟨S1, .f32⟩
  | 84 => ⟨S_, .f32⟩
  | 85 => ⟨S4096x2048, .f32⟩
  | 86 => ⟨S4096x2048, .f32⟩
  | 87 => ⟨S4096x2048, .f32⟩
  | 88 => ⟨S1x2048x2048, .f32⟩
  | 89 => ⟨S2048x2048, .f32⟩
  | 90 => ⟨S4096x2048, .f32⟩
  | 91 => ⟨S1x2048, .f32⟩
  | 92 => ⟨S2048, .f32⟩
  | 93 => ⟨S1x2048, .f32⟩
  | 94 => ⟨S4096x2048, .f32⟩
  | 95 => ⟨S4096x2048, .f32⟩
  | 96 => ⟨S_, .f32⟩
  | 97 => ⟨S4096x2048, .f32⟩
  | 98 => ⟨S4096x2048, .f32⟩
  | 99 => ⟨S1, .f32⟩
  | 100 => ⟨S_, .f32⟩
  | 101 => ⟨S4096x2048, .f32⟩
  | 102 => ⟨S4096x2048, .f32⟩
  | 103 => ⟨S4096x2048, .f32⟩
  | 104 => ⟨S1x2048x2048, .f32⟩
  | 105 => ⟨S2048x2048, .f32⟩
  | 106 => ⟨S4096x2048, .f32⟩
  | 107 => ⟨S1x2048, .f32⟩
  | 108 => ⟨S2048, .f32⟩
  | 109 => ⟨S1x2048, .f32⟩
  | 110 => ⟨S4096x2048, .f32⟩
  | 111 => ⟨S4096x2048, .f32⟩
  | 112 => ⟨S_, .f32⟩
  | 113 => ⟨S4096x2048, .f32⟩
  | 114 => ⟨S4096x2048, .f32⟩
  | 115 => ⟨S1, .f32⟩
  | 116 => ⟨S_, .f32⟩
  | 117 => ⟨S4096x2048, .f32⟩
  | 118 => ⟨S4096x2048, .f32⟩
  | 119 => ⟨S4096x2048, .f32⟩
  | 120 => ⟨S1x2048x2048, .f32⟩
  | 121 => ⟨S2048x2048, .f32⟩
  | 122 => ⟨S4096x2048, .f32⟩
  | 123 => ⟨S1x2048, .f32⟩
  | 124 => ⟨S2048, .f32⟩
  | 125 => ⟨S1x2048, .f32⟩
  | 126 => ⟨S4096x2048, .f32⟩
  | 127 => ⟨S4096x2048, .f32⟩
  | _ => ⟨S4096x2048, .f32⟩

abbrev hbmTy0_1 (i : Nat) : BufTy := match i % 128 with
  | 0 => ⟨S_, .f32⟩
  | 1 => ⟨S4096x2048, .f32⟩
  | 2 => ⟨S4096x2048, .f32⟩
  | 3 => ⟨S1, .f32⟩
  | 4 => ⟨S_, .f32⟩
  | 5 => ⟨S4096x2048, .f32⟩
  | 6 => ⟨S4096x2048, .f32⟩
  | 7 => ⟨S4096x2048, .f32⟩
  | 8 => ⟨S1x2048x2048, .f32⟩
  | 9 => ⟨S2048x2048, .f32⟩
  | 10 => ⟨S4096x2048, .f32⟩
  | 11 => ⟨S1x2048, .f32⟩
  | 12 => ⟨S2048, .f32⟩
  | 13 => ⟨S1x2048, .f32⟩
  | 14 => ⟨S4096x2048, .f32⟩
  | 15 => ⟨S4096x2048, .f32⟩
  | 16 => ⟨S_, .f32⟩
  | 17 => ⟨S4096x2048, .f32⟩
  | 18 => ⟨S4096x2048, .f32⟩
  | 19 => ⟨S1, .f32⟩
  | 20 => ⟨S_, .f32⟩
  | 21 => ⟨S4096x2048, .f32⟩
  | 22 => ⟨S4096x2048, .f32⟩
  | 23 => ⟨S4096x2048, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_cst : Ref sig .tc := ⟨.hbm, 32, rfl⟩
abbrev main_call0_v0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_call1_cst : Ref sig .tc := ⟨.hbm, 48, rfl⟩
abbrev main_call1_v0 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_call2_cst : Ref sig .tc := ⟨.hbm, 64, rfl⟩
abbrev main_call2_v0 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_call3_cst : Ref sig .tc := ⟨.hbm, 80, rfl⟩
abbrev main_call3_v0 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_call4_cst : Ref sig .tc := ⟨.hbm, 96, rfl⟩
abbrev main_call4_v0 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_call5_cst : Ref sig .tc := ⟨.hbm, 112, rfl⟩
abbrev main_call5_v0 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_call6_cst : Ref sig .tc := ⟨.hbm, 128, rfl⟩
abbrev main_call6_v0 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_call7_cst : Ref sig .tc := ⟨.hbm, 144, rfl⟩
abbrev main_call7_v0 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩

abbrev nD : Nat := 1
abbrev τ : Topo := Topo.v7x

variable {F : FTy → Type} [FloatOps F]

class Facts₀ : Prop where
  reducesTo_S8_S_d0 : S8.ReducesTo [0] S_
  h_S_ : 0 < S_.numel
  bcast_S_S1 : S_.BroadcastsInDim S1 (![] : Fin 0 → Fin S1.rank)
  bcast_S1_S8_0 : S1.BroadcastsInDim S8 (![0] : Fin 1 → Fin S8.rank)
  bcast_S4096_S4096x1_0 : S4096.BroadcastsInDim S4096x1 (![0] : Fin 1 → Fin S4096x1.rank)
  bcast_S4096x1_S4096x2048_0_1 : S4096x1.BroadcastsInDim S4096x2048 (![0, 1] : Fin 2 → Fin S4096x2048.rank)
  bcast_S_S4096x2048 : S_.BroadcastsInDim S4096x2048 (![] : Fin 0 → Fin S4096x2048.rank)
  slices_S8x2048x2048_S1x2048x2048_0_0_0 : S8x2048x2048.Slices ![0, 0, 0] S1x2048x2048
  shapeCasts_S1x2048x2048_S2048x2048 : S1x2048x2048.ShapeCasts S2048x2048
  slices_S8x2048_S1x2048_0_0 : S8x2048.Slices ![0, 0] S1x2048
  shapeCasts_S1x2048_S2048 : S1x2048.ShapeCasts S2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  slices_S8_S1_0 : S8.Slices ![0] S1
  shapeCasts_S1_S_ : S1.ShapeCasts S_
  slices_S8x2048x2048_S1x2048x2048_1_0_0 : S8x2048x2048.Slices ![1, 0, 0] S1x2048x2048
  slices_S8x2048_S1x2048_1_0 : S8x2048.Slices ![1, 0] S1x2048
  slices_S8_S1_1 : S8.Slices ![1] S1
  slices_S8x2048x2048_S1x2048x2048_2_0_0 : S8x2048x2048.Slices ![2, 0, 0] S1x2048x2048
  slices_S8x2048_S1x2048_2_0 : S8x2048.Slices ![2, 0] S1x2048
  slices_S8_S1_2 : S8.Slices ![2] S1
  slices_S8x2048x2048_S1x2048x2048_3_0_0 : S8x2048x2048.Slices ![3, 0, 0] S1x2048x2048
  slices_S8x2048_S1x2048_3_0 : S8x2048.Slices ![3, 0] S1x2048
  slices_S8_S1_3 : S8.Slices ![3] S1
  slices_S8x2048x2048_S1x2048x2048_4_0_0 : S8x2048x2048.Slices ![4, 0, 0] S1x2048x2048
  slices_S8x2048_S1x2048_4_0 : S8x2048.Slices ![4, 0] S1x2048
  slices_S8_S1_4 : S8.Slices ![4] S1
  slices_S8x2048x2048_S1x2048x2048_5_0_0 : S8x2048x2048.Slices ![5, 0, 0] S1x2048x2048
  slices_S8x2048_S1x2048_5_0 : S8x2048.Slices ![5, 0] S1x2048
  slices_S8_S1_5 : S8.Slices ![5] S1
  slices_S8x2048x2048_S1x2048x2048_6_0_0 : S8x2048x2048.Slices ![6, 0, 0] S1x2048x2048
  slices_S8x2048_S1x2048_6_0 : S8x2048.Slices ![6, 0] S1x2048
  slices_S8_S1_6 : S8.Slices ![6] S1
  slices_S8x2048x2048_S1x2048x2048_7_0_0 : S8x2048x2048.Slices ![7, 0, 0] S1x2048x2048
  slices_S8x2048_S1x2048_7_0 : S8x2048.Slices ![7, 0] S1x2048
  slices_S8_S1_7 : S8.Slices ![7] S1
  dot_S4096x2048_S2048x2048_S4096x2048_1_0_0_1_n_n_wf : DotDims.WF S4096x2048 S2048x2048 S4096x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf

class Facts : Prop extends Facts₀ where

variable [Facts]
-- ==== Proof.KBase.lean ====
/-
  The grid of the one kernel region is 4 column tiles by 8 candidate operations, the operation index innermost:
  point t works on column tile t / 8 and operation t % 8. The body resets the output tile at operation 0 and adds
  to it at every later operation, so its two conditionals are decided by t % 8 alone, and the output tile's staging
  buffer is written at every point (the window is never idle).
-/
import proofs.«163268_g51634096833270_cont_9to1_m_282_29_alg».proof.Proof.Gen.Kernel.Frame
import proofs.«163268_g51634096833270_cont_9to1_m_282_29_alg».proof.Proof.Gen.Kernel.Skeleton

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first conditional (operation 0: store the term) holds exactly at the first of each run of eight points. -/
theorem hcond1 : ∀ t : Fin cfg0.N, k0_cond1 (grid0.coords t) = 1#1 ↔ t.val % 8 = 0 :=
  (by decide +kernel : ∀ t : Fin grid0.N, k0_cond1 (grid0.coords t) = 1#1 ↔ t.val % 8 = 0)

/-- The second conditional (a later operation: add the term) holds exactly at the other points. -/
theorem hcond2 : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)

/-- At every coordinate one of the two conditionals holds, so the body stores into the output tile's buffer. -/
theorem hlive5 : ∀ i : grid0.Coords, cfg0.idle 5 i = false :=
  (by decide +kernel : ∀ i : grid0.Coords, idle0 5 i = false)

/-- One staging buffer of the output window, through which its contents are stated. -/
abbrev VO5 : View sig .tc .vmem S4096x512 .f32 := (Memref.whole cc0_stg5_0 : Memref sig .tc .vmem S4096x512 .f32).view

/-- Each window's current staging memref at point `t`, as the pipeline passes it, and its wholeness. -/
abbrev ms0 (t : Fin cfg0.N) : Memref sig .tc .vmem S4096x2048 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x1 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x8 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048x512 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S4096x512 .f32 := win0_5.stage (cfg0.slots t 5)
abbrev hs5 (t : Fin cfg0.N) : (ms5 t).IsWhole := hstage0_5 ((cfg0.slots t 5).cast nbuf0_5)

end Cert.Kernel.Hand

end
-- ==== Proof.KRunA.lean ====
/-
  The kernel body at a point of operation 0 (the first conditional taken, the second not): on whole staging
  memrefs, the five inputs at their contents and the output tile's buffer at anything, the body runs to its end,
  hands the inputs back as they were and leaves the output tile's buffer written with the pieces found here.
-/
import proofs.«163268_g51634096833270_cont_9to1_m_282_29_alg».proof.Proof.KBase

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run where it resets the output tile: the pieces the tile's buffer ends with, and the triple. -/
noncomputable def kernelRunA (c : Dev nD) (i : grid0.Coords) (arg2 : Memref sig .tc .vmem S4096x2048 .bf16) (harg2 : arg2.IsWhole) (arg3 : Memref sig .tc .vmem S4096x1 .i32) (harg3 : arg3.IsWhole) (arg4 : Memref sig .tc .vmem S1x8 .f32) (harg4 : arg4.IsWhole) (arg5 : Memref sig .tc .vmem S1x2048x512 .bf16) (harg5 : arg5.IsWhole) (arg6 : Memref sig .tc .vmem S1x1x512 .f32) (harg6 : arg6.IsWhole) (arg7 : Memref sig .tc .vmem S4096x512 .f32) (harg7 : arg7.IsWhole) (hc1 : k0_cond1 i = 1#1) (hc2 : ¬k0_cond2 i = 1#1)
    (x0 : Vec F S4096x2048 .bf16) (x1 : Vec F S4096x1 .i32) (x2 : Vec F S1x8 .f32) (x3 : Vec F S1x2048x512 .bf16) (x4 : Vec F S1x1x512 .f32) :
    { L5 : List (View.Piece (Elt F) S4096x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc0__body i arg2 harg2 arg3 harg3 arg4 harg4 arg5 harg5 arg6 harg6 arg7 harg7) K } := by
  refine ⟨?_, fun E K => ?run⟩
  case run =>
    simp only [cc0__body_eq_skeleton]; unfold cc0__body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.Kernel.Hand

end
-- ==== Proof.KRunB.lean ====
/-
  The kernel body at a point of a later operation (the first conditional not taken, the second taken): the output
  tile's buffer holds the running sum `xo`, which the body loads, adds this operation's term to, and stores back.
-/
import proofs.«163268_g51634096833270_cont_9to1_m_282_29_alg».proof.Proof.KRunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run where it adds to the output tile: the pieces the tile's buffer ends with, and the triple. -/
noncomputable def kernelRunB (c : Dev nD) (i : grid0.Coords) (arg2 : Memref sig .tc .vmem S4096x2048 .bf16) (harg2 : arg2.IsWhole) (arg3 : Memref sig .tc .vmem S4096x1 .i32) (harg3 : arg3.IsWhole) (arg4 : Memref sig .tc .vmem S1x8 .f32) (harg4 : arg4.IsWhole) (arg5 : Memref sig .tc .vmem S1x2048x512 .bf16) (harg5 : arg5.IsWhole) (arg6 : Memref sig .tc .vmem S1x1x512 .f32) (harg6 : arg6.IsWhole) (arg7 : Memref sig .tc .vmem S4096x512 .f32) (harg7 : arg7.IsWhole) (hc1 : ¬k0_cond1 i = 1#1) (hc2 : k0_cond2 i = 1#1)
    (x0 : Vec F S4096x2048 .bf16) (x1 : Vec F S4096x1 .i32) (x2 : Vec F S1x8 .f32) (x3 : Vec F S1x2048x512 .bf16) (x4 : Vec F S1x1x512 .f32) (xo : Vec F S4096x512 .f32) :
    { L5 : List (View.Piece (Elt F) S4096x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc0__body i arg2 harg2 arg3 harg3 arg4 harg4 arg5 harg5 arg6 harg6 arg7 harg7) K } := by
  refine ⟨?_, fun E K => ?run⟩
  case run =>
    simp only [cc0__body_eq_skeleton]; unfold cc0__body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.Kernel.Hand

end
-- ==== Proof.KFrame.lean ====
/-
  The frame of the kernel program: every weakly fair execution of its one region terminates without a fault and
  leaves the five argument arrays as it found them.

  The output tile of a column block is accumulated in its staging buffer over the eight operations of the block:
  at operation 0 the body stores the operation's term, at each later operation it adds the term to what the point
  before left; the buffer is written back to the result array after operation 7 only. So what the buffer holds after
  point t is defined by recursion on t (`outsAt`), each input's buffer holds its block at every point, and at a
  point of a later operation the output's buffer still holds what the point before left (no write-back between).
-/
import proofs.«163268_g51634096833270_cont_9to1_m_282_29_alg».proof.Proof.KRunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The reset case stores the whole tile once, so its pieces cover the tile. -/
theorem coverA (c : Dev nD) (i : grid0.Coords) (arg2 : Memref sig .tc .vmem S4096x2048 .bf16) (harg2 : arg2.IsWhole) (arg3 : Memref sig .tc .vmem S4096x1 .i32) (harg3 : arg3.IsWhole) (arg4 : Memref sig .tc .vmem S1x8 .f32) (harg4 : arg4.IsWhole) (arg5 : Memref sig .tc .vmem S1x2048x512 .bf16) (harg5 : arg5.IsWhole) (arg6 : Memref sig .tc .vmem S1x1x512 .f32) (harg6 : arg6.IsWhole) (arg7 : Memref sig .tc .vmem S4096x512 .f32) (harg7 : arg7.IsWhole) (hc1 : k0_cond1 i = 1#1) (hc2 : ¬k0_cond2 i = 1#1)
    (x0 : Vec F S4096x2048 .bf16) (x1 : Vec F S4096x1 .i32) (x2 : Vec F S1x8 .f32) (x3 : Vec F S1x2048x512 .bf16) (x4 : Vec F S1x1x512 .f32) (y : S4096x512.Idx) :
    ∃ pc ∈ (kernelRunA c i arg2 harg2 arg3 harg3 arg4 harg4 arg5 harg5 arg6 harg6 arg7 harg7 hc1 hc2 x0 x1 x2 x3 x4).1, y ∈ pc.1.set :=
  View.cover_of_tiledL (kernelRunA c i arg2 harg2 arg3 harg3 arg4 harg4 arg5 harg5 arg6 harg6 arg7 harg7 hc1 hc2 x0 x1 x2 x3 x4).1 S4096x512.size (by sl_kernel_rfl) y

/-- What the reset case leaves in the output tile's buffer: its pieces read back. -/
def outA (c : Dev nD) (i : grid0.Coords) (arg2 : Memref sig .tc .vmem S4096x2048 .bf16) (harg2 : arg2.IsWhole) (arg3 : Memref sig .tc .vmem S4096x1 .i32) (harg3 : arg3.IsWhole) (arg4 : Memref sig .tc .vmem S1x8 .f32) (harg4 : arg4.IsWhole) (arg5 : Memref sig .tc .vmem S1x2048x512 .bf16) (harg5 : arg5.IsWhole) (arg6 : Memref sig .tc .vmem S1x1x512 .f32) (harg6 : arg6.IsWhole) (arg7 : Memref sig .tc .vmem S4096x512 .f32) (harg7 : arg7.IsWhole) (hc1 : k0_cond1 i = 1#1) (hc2 : ¬k0_cond2 i = 1#1)
    (x0 : Vec F S4096x2048 .bf16) (x1 : Vec F S4096x1 .i32) (x2 : Vec F S1x8 .f32) (x3 : Vec F S1x2048x512 .bf16) (x4 : Vec F S1x1x512 .f32) : Vec F S4096x512 .f32 :=
  VO5.read (Elt F) (VO5.writes (Elt F) VO5.junk (kernelRunA c i arg2 harg2 arg3 harg3 arg4 harg4 arg5 harg5 arg6 harg6 arg7 harg7 hc1 hc2 x0 x1 x2 x3 x4).1)

/-- The adding case stores the whole tile once, so its pieces cover the tile. -/
theorem coverB (c : Dev nD) (i : grid0.Coords) (arg2 : Memref sig .tc .vmem S4096x2048 .bf16) (harg2 : arg2.IsWhole) (arg3 : Memref sig .tc .vmem S4096x1 .i32) (harg3 : arg3.IsWhole) (arg4 : Memref sig .tc .vmem S1x8 .f32) (harg4 : arg4.IsWhole) (arg5 : Memref sig .tc .vmem S1x2048x512 .bf16) (harg5 : arg5.IsWhole) (arg6 : Memref sig .tc .vmem S1x1x512 .f32) (harg6 : arg6.IsWhole) (arg7 : Memref sig .tc .vmem S4096x512 .f32) (harg7 : arg7.IsWhole) (hc1 : ¬k0_cond1 i = 1#1) (hc2 : k0_cond2 i = 1#1)
    (x0 : Vec F S4096x2048 .bf16) (x1 : Vec F S4096x1 .i32) (x2 : Vec F S1x8 .f32) (x3 : Vec F S1x2048x512 .bf16) (x4 : Vec F S1x1x512 .f32) (xo : Vec F S4096x512 .f32) (y : S4096x512.Idx) :
    ∃ pc ∈ (kernelRunB c i arg2 harg2 arg3 harg3 arg4 harg4 arg5 harg5 arg6 harg6 arg7 harg7 hc1 hc2 x0 x1 x2 x3 x4 xo).1, y ∈ pc.1.set :=
  View.cover_of_tiledL (kernelRunB c i arg2 harg2 arg3 harg3 arg4 harg4 arg5 harg5 arg6 harg6 arg7 harg7 hc1 hc2 x0 x1 x2 x3 x4 xo).1 S4096x512.size (by sl_kernel_rfl) y

/-- What the adding case leaves in the output tile's buffer, over the running contents `xo`. -/
def outB (c : Dev nD) (i : grid0.Coords) (arg2 : Memref sig .tc .vmem S4096x2048 .bf16) (harg2 : arg2.IsWhole) (arg3 : Memref sig .tc .vmem S4096x1 .i32) (harg3 : arg3.IsWhole) (arg4 : Memref sig .tc .vmem S1x8 .f32) (harg4 : arg4.IsWhole) (arg5 : Memref sig .tc .vmem S1x2048x512 .bf16) (harg5 : arg5.IsWhole) (arg6 : Memref sig .tc .vmem S1x1x512 .f32) (harg6 : arg6.IsWhole) (arg7 : Memref sig .tc .vmem S4096x512 .f32) (harg7 : arg7.IsWhole) (hc1 : ¬k0_cond1 i = 1#1) (hc2 : k0_cond2 i = 1#1)
    (x0 : Vec F S4096x2048 .bf16) (x1 : Vec F S4096x1 .i32) (x2 : Vec F S1x8 .f32) (x3 : Vec F S1x2048x512 .bf16) (x4 : Vec F S1x1x512 .f32) (xo : Vec F S4096x512 .f32) : Vec F S4096x512 .f32 :=
  VO5.read (Elt F) (VO5.writes (Elt F) VO5.junk (kernelRunB c i arg2 harg2 arg3 harg3 arg4 harg4 arg5 harg5 arg6 harg6 arg7 harg7 hc1 hc2 x0 x1 x2 x3 x4 xo).1)

/-! ## What the output tile's buffer holds after each point -/

/-- The accumulation: after point `n` the buffer holds the reset case's contents when `n` starts a column block, and
    otherwise the adding case's contents over what point `n - 1` left. -/
def outsAt (c : Dev nD) : (n : ℕ) → n < cfg0.N → Vec F S4096x512 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) ((hcond1 ⟨0, hn⟩).mpr (Nat.zero_mod _)) (fun h => ((hcond2 ⟨0, hn⟩).mp h) (Nat.zero_mod _)) (iblk m c 0 ⟨0, hn⟩) (iblk m c 1 ⟨0, hn⟩) (iblk m c 2 ⟨0, hn⟩) (iblk m c 3 ⟨0, hn⟩) (iblk m c 4 ⟨0, hn⟩)
  | n + 1, hn =>
    if h0 : (n + 1) % 8 = 0 then
      outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) ((hcond1 ⟨n + 1, hn⟩).mpr h0) (fun h => ((hcond2 ⟨n + 1, hn⟩).mp h) h0) (iblk m c 0 ⟨n + 1, hn⟩) (iblk m c 1 ⟨n + 1, hn⟩) (iblk m c 2 ⟨n + 1, hn⟩) (iblk m c 3 ⟨n + 1, hn⟩) (iblk m c 4 ⟨n + 1, hn⟩)
    else
      outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (fun h => h0 ((hcond1 ⟨n + 1, hn⟩).mp h)) ((hcond2 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt c n (Nat.lt_of_succ_lt hn))

/-- `outsAt` at the first point of a column block. -/
theorem outsAt_A (c : Dev nD) (t : Fin cfg0.N) (h0 : t.val % 8 = 0) :
    outsAt m c t.val t.isLt = outA c (grid0.coords t) (ms0 t) (hs0 t) (ms1 t) (hs1 t) (ms2 t) (hs2 t) (ms3 t) (hs3 t) (ms4 t) (hs4 t) (ms5 t) (hs5 t) ((hcond1 t).mpr h0) (fun h => ((hcond2 t).mp h) h0) (iblk m c 0 t) (iblk m c 1 t) (iblk m c 2 t) (iblk m c 3 t) (iblk m c 4 t) := by
  obtain ⟨n, hn⟩ := t
  cases n with
  | zero => exact rfl
  | succ n => exact (dif_pos h0).trans rfl

/-- `outsAt` at a later point of a column block: over what the point before left. -/
theorem outsAt_B (c : Dev nD) (t : Fin cfg0.N) (h0 : ¬t.val % 8 = 0) :
    outsAt m c t.val t.isLt = outB c (grid0.coords t) (ms0 t) (hs0 t) (ms1 t) (hs1 t) (ms2 t) (hs2 t) (ms3 t) (hs3 t) (ms4 t) (hs4 t) (ms5 t) (hs5 t) (fun h => h0 ((hcond1 t).mp h)) ((hcond2 t).mpr h0) (iblk m c 0 t) (iblk m c 1 t) (iblk m c 2 t) (iblk m c 3 t) (iblk m c 4 t) (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t`
    each input's buffer at its block and the output's at `outsAt`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outsAt m c t.val t.isLt
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outsAt m c t.val t.isLt := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- At a later point of a column block the output tile's buffer holds what the body left at the point before: the
    point is not the first, the buffer was not written back between (write-backs follow operation 7 only), and the
    window is live and uncut. -/
theorem before_5_B (c : Dev nD) (t : Fin cfg0.N) (h0 : ¬t.val % 8 = 0) (d) :
    (dats m 0 c).before 5 t d = outsAt m c (t.val - 1) (Nat.lt_of_le_of_lt (Nat.sub_le _ _) t.isLt) := by
  have hN : t.val < 32 := lt_of_lt_of_eq t.isLt (show cfg0.N = 32 from N_0)
  rw [Dat.before_out_kept _ 5 rfl t (by omega) (Bool.eq_false_iff.mpr fun h => by have := (flush0_5 _).mp h; dsimp only at this; omega)
    hlive5 (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 1600000 in
/-- The body at any point: the inputs' memrefs hold their blocks; `t % 8` says which case the point is in; at a
    later operation the output's buffer holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  by_cases h0 : t.val % 8 = 0
  · rw [outsAt_A m c t h0]
    unfold outA
    iintro ⟨HΦ, Ho, ⟨%d0, H0⟩, ⟨%d1, H1⟩, ⟨%d2, H2⟩, ⟨%d3, H3⟩, ⟨%d4, H4⟩, ⟨%d5, H5⟩⟩
    iapply ((kernelRunA c (grid0.coords t) _ _ _ _ _ _ _ _ _ _ _ _ ((hcond1 t).mpr h0) (fun h => ((hcond2 t).mp h) h0) (iblk m c 0 t) (iblk m c 1 t) (iblk m c 2 t) (iblk m c 3 t) (iblk m c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverA c _ _ _ _ _ _ _ _ _ _ _ _ _ _ _ _ _ _ _ _)
  · rw [outsAt_B m c t h0]
    simp only [before_5_B m c t h0]
    unfold outB
    iintro ⟨HΦ, Ho, ⟨%d0, H0⟩, ⟨%d1, H1⟩, ⟨%d2, H2⟩, ⟨%d3, H3⟩, ⟨%d4, H4⟩, ⟨%d5, H5⟩⟩
    iapply ((kernelRunB c (grid0.coords t) _ _ _ _ _ _ _ _ _ _ _ _ (fun h => h0 ((hcond1 t).mp h)) ((hcond2 t).mpr h0) (iblk m c 0 t) (iblk m c 1 t) (iblk m c 2 t) (iblk m c 3 t) (iblk m c 4 t) _).2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverB c _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  have h5 : cfg0.idle 5 (cfg0.grid.coords t) = false := hlive5 _
  rw [h5]
  exact sound_body m c t

/-! ## The run and the frame -/

set_option backward.isDefEq.respectTransparency.types false in
/-- From any memory with zero counters every weakly fair execution of the program terminates, and every final state
    has every array of the pipeline at what the proof data say and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to its end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Hand

end
-- ==== Proof.KIBase.lean ====
/-
  The grid of the one kernel region is 4 column tiles by 8 candidate operations, the operation index innermost:
  point t works on column tile t / 8 and operation t % 8. The body resets the output tile at operation 0 and adds
  to it at every later operation, so its two conditionals are decided by t % 8 alone, and the output tile's staging
  buffer is written at every point (the window is never idle).
-/
import proofs.«163268_g51634096833270_cont_9to1_m_282_29_alg».proof.Proof.Gen.KernelIdeal.Frame
import proofs.«163268_g51634096833270_cont_9to1_m_282_29_alg».proof.Proof.Gen.KernelIdeal.Skeleton

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first conditional (operation 0: store the term) holds exactly at the first of each run of eight points. -/
theorem hcond1 : ∀ t : Fin cfg0.N, k0_cond1 (grid0.coords t) = 1#1 ↔ t.val % 8 = 0 :=
  (by decide +kernel : ∀ t : Fin grid0.N, k0_cond1 (grid0.coords t) = 1#1 ↔ t.val % 8 = 0)

/-- The second conditional (a later operation: add the term) holds exactly at the other points. -/
theorem hcond2 : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)

/-- At every coordinate one of the two conditionals holds, so the body stores into the output tile's buffer. -/
theorem hlive5 : ∀ i : grid0.Coords, cfg0.idle 5 i = false :=
  (by decide +kernel : ∀ i : grid0.Coords, idle0 5 i = false)

/-- One staging buffer of the output window, through which its contents are stated. -/
abbrev VO5 : View sig .tc .vmem S4096x512 .f32 := (Memref.whole cc0_stg5_0 : Memref sig .tc .vmem S4096x512 .f32).view

/-- Each window's current staging memref at point `t`, as the pipeline passes it, and its wholeness. -/
abbrev ms0 (t : Fin cfg0.N) : Memref sig .tc .vmem S4096x2048 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x1 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x8 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048x512 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S4096x512 .f32 := win0_5.stage (cfg0.slots t 5)
abbrev hs5 (t : Fin cfg0.N) : (ms5 t).IsWhole := hstage0_5 ((cfg0.slots t 5).cast nbuf0_5)

end Cert.KernelIdeal.Hand

end
-- ==== Proof.KIRunA.lean ====
/-
  The kernel body at a point of operation 0 (the first conditional taken, the second not): on whole staging
  memrefs, the five inputs at their contents and the output tile's buffer at anything, the body runs to its end,
  hands the inputs back as they were and leaves the output tile's buffer written with the pieces found here.
-/
import proofs.«163268_g51634096833270_cont_9to1_m_282_29_alg».proof.Proof.KIBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run where it resets the output tile: the pieces the tile's buffer ends with, and the triple. -/
noncomputable def kernelRunA (c : Dev nD) (i : grid0.Coords) (arg2 : Memref sig .tc .vmem S4096x2048 .bf16) (harg2 : arg2.IsWhole) (arg3 : Memref sig .tc .vmem S4096x1 .i32) (harg3 : arg3.IsWhole) (arg4 : Memref sig .tc .vmem S1x8 .f32) (harg4 : arg4.IsWhole) (arg5 : Memref sig .tc .vmem S1x2048x512 .bf16) (harg5 : arg5.IsWhole) (arg6 : Memref sig .tc .vmem S1x1x512 .f32) (harg6 : arg6.IsWhole) (arg7 : Memref sig .tc .vmem S4096x512 .f32) (harg7 : arg7.IsWhole) (hc1 : k0_cond1 i = 1#1) (hc2 : ¬k0_cond2 i = 1#1)
    (x0 : Vec F S4096x2048 .bf16) (x1 : Vec F S4096x1 .i32) (x2 : Vec F S1x8 .f32) (x3 : Vec F S1x2048x512 .bf16) (x4 : Vec F S1x1x512 .f32) :
    { L5 : List (View.Piece (Elt F) S4096x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc0__body i arg2 harg2 arg3 harg3 arg4 harg4 arg5 harg5 arg6 harg6 arg7 harg7) K } := by
  refine ⟨?_, fun E K => ?run⟩
  case run =>
    simp only [cc0__body_eq_skeleton]; unfold cc0__body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.KernelIdeal.Hand

end
-- ==== Proof.KIRunB.lean ====
/-
  The kernel body at a point of a later operation (the first conditional not taken, the second taken): the output
  tile's buffer holds the running sum `xo`, which the body loads, adds this operation's term to, and stores back.
-/
import proofs.«163268_g51634096833270_cont_9to1_m_282_29_alg».proof.Proof.KIRunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run where it adds to the output tile: the pieces the tile's buffer ends with, and the triple. -/
noncomputable def kernelRunB (c : Dev nD) (i : grid0.Coords) (arg2 : Memref sig .tc .vmem S4096x2048 .bf16) (harg2 : arg2.IsWhole) (arg3 : Memref sig .tc .vmem S4096x1 .i32) (harg3 : arg3.IsWhole) (arg4 : Memref sig .tc .vmem S1x8 .f32) (harg4 : arg4.IsWhole) (arg5 : Memref sig .tc .vmem S1x2048x512 .bf16) (harg5 : arg5.IsWhole) (arg6 : Memref sig .tc .vmem S1x1x512 .f32) (harg6 : arg6.IsWhole) (arg7 : Memref sig .tc .vmem S4096x512 .f32) (harg7 : arg7.IsWhole) (hc1 : ¬k0_cond1 i = 1#1) (hc2 : k0_cond2 i = 1#1)
    (x0 : Vec F S4096x2048 .bf16) (x1 : Vec F S4096x1 .i32) (x2 : Vec F S1x8 .f32) (x3 : Vec F S1x2048x512 .bf16) (x4 : Vec F S1x1x512 .f32) (xo : Vec F S4096x512 .f32) :
    { L5 : List (View.Piece (Elt F) S4096x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc0__body i arg2 harg2 arg3 harg3 arg4 harg4 arg5 harg5 arg6 harg6 arg7 harg7) K } := by
  refine ⟨?_, fun E K => ?run⟩
  case run =>
    simp only [cc0__body_eq_skeleton]; unfold cc0__body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.KernelIdeal.Hand

end
-- ==== Proof.KIFrame.lean ====
/-
  The frame of the kernel program: every weakly fair execution of its one region terminates without a fault and
  leaves the five argument arrays as it found them.

  The output tile of a column block is accumulated in its staging buffer over the eight operations of the block:
  at operation 0 the body stores the operation's term, at each later operation it adds the term to what the point
  before left; the buffer is written back to the result array after operation 7 only. So what the buffer holds after
  point t is defined by recursion on t (`outsAt`), each input's buffer holds its block at every point, and at a
  point of a later operation the output's buffer still holds what the point before left (no write-back between).
-/
import proofs.«163268_g51634096833270_cont_9to1_m_282_29_alg».proof.Proof.KIRunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The reset case stores the whole tile once, so its pieces cover the tile. -/
theorem coverA (c : Dev nD) (i : grid0.Coords) (arg2 : Memref sig .tc .vmem S4096x2048 .bf16) (harg2 : arg2.IsWhole) (arg3 : Memref sig .tc .vmem S4096x1 .i32) (harg3 : arg3.IsWhole) (arg4 : Memref sig .tc .vmem S1x8 .f32) (harg4 : arg4.IsWhole) (arg5 : Memref sig .tc .vmem S1x2048x512 .bf16) (harg5 : arg5.IsWhole) (arg6 : Memref sig .tc .vmem S1x1x512 .f32) (harg6 : arg6.IsWhole) (arg7 : Memref sig .tc .vmem S4096x512 .f32) (harg7 : arg7.IsWhole) (hc1 : k0_cond1 i = 1#1) (hc2 : ¬k0_cond2 i = 1#1)
    (x0 : Vec F S4096x2048 .bf16) (x1 : Vec F S4096x1 .i32) (x2 : Vec F S1x8 .f32) (x3 : Vec F S1x2048x512 .bf16) (x4 : Vec F S1x1x512 .f32) (y : S4096x512.Idx) :
    ∃ pc ∈ (kernelRunA c i arg2 harg2 arg3 harg3 arg4 harg4 arg5 harg5 arg6 harg6 arg7 harg7 hc1 hc2 x0 x1 x2 x3 x4).1, y ∈ pc.1.set :=
  View.cover_of_tiledL (kernelRunA c i arg2 harg2 arg3 harg3 arg4 harg4 arg5 harg5 arg6 harg6 arg7 harg7 hc1 hc2 x0 x1 x2 x3 x4).1 S4096x512.size (by sl_kernel_rfl) y

/-- What the reset case leaves in the output tile's buffer: its pieces read back. -/
def outA (c : Dev nD) (i : grid0.Coords) (arg2 : Memref sig .tc .vmem S4096x2048 .bf16) (harg2 : arg2.IsWhole) (arg3 : Memref sig .tc .vmem S4096x1 .i32) (harg3 : arg3.IsWhole) (arg4 : Memref sig .tc .vmem S1x8 .f32) (harg4 : arg4.IsWhole) (arg5 : Memref sig .tc .vmem S1x2048x512 .bf16) (harg5 : arg5.IsWhole) (arg6 : Memref sig .tc .vmem S1x1x512 .f32) (harg6 : arg6.IsWhole) (arg7 : Memref sig .tc .vmem S4096x512 .f32) (harg7 : arg7.IsWhole) (hc1 : k0_cond1 i = 1#1) (hc2 : ¬k0_cond2 i = 1#1)
    (x0 : Vec F S4096x2048 .bf16) (x1 : Vec F S4096x1 .i32) (x2 : Vec F S1x8 .f32) (x3 : Vec F S1x2048x512 .bf16) (x4 : Vec F S1x1x512 .f32) : Vec F S4096x512 .f32 :=
  VO5.read (Elt F) (VO5.writes (Elt F) VO5.junk (kernelRunA c i arg2 harg2 arg3 harg3 arg4 harg4 arg5 harg5 arg6 harg6 arg7 harg7 hc1 hc2 x0 x1 x2 x3 x4).1)

/-- The adding case stores the whole tile once, so its pieces cover the tile. -/
theorem coverB (c : Dev nD) (i : grid0.Coords) (arg2 : Memref sig .tc .vmem S4096x2048 .bf16) (harg2 : arg2.IsWhole) (arg3 : Memref sig .tc .vmem S4096x1 .i32) (harg3 : arg3.IsWhole) (arg4 : Memref sig .tc .vmem S1x8 .f32) (harg4 : arg4.IsWhole) (arg5 : Memref sig .tc .vmem S1x2048x512 .bf16) (harg5 : arg5.IsWhole) (arg6 : Memref sig .tc .vmem S1x1x512 .f32) (harg6 : arg6.IsWhole) (arg7 : Memref sig .tc .vmem S4096x512 .f32) (harg7 : arg7.IsWhole) (hc1 : ¬k0_cond1 i = 1#1) (hc2 : k0_cond2 i = 1#1)
    (x0 : Vec F S4096x2048 .bf16) (x1 : Vec F S4096x1 .i32) (x2 : Vec F S1x8 .f32) (x3 : Vec F S1x2048x512 .bf16) (x4 : Vec F S1x1x512 .f32) (xo : Vec F S4096x512 .f32) (y : S4096x512.Idx) :
    ∃ pc ∈ (kernelRunB c i arg2 harg2 arg3 harg3 arg4 harg4 arg5 harg5 arg6 harg6 arg7 harg7 hc1 hc2 x0 x1 x2 x3 x4 xo).1, y ∈ pc.1.set :=
  View.cover_of_tiledL (kernelRunB c i arg2 harg2 arg3 harg3 arg4 harg4 arg5 harg5 arg6 harg6 arg7 harg7 hc1 hc2 x0 x1 x2 x3 x4 xo).1 S4096x512.size (by sl_kernel_rfl) y

/-- What the adding case leaves in the output tile's buffer, over the running contents `xo`. -/
def outB (c : Dev nD) (i : grid0.Coords) (arg2 : Memref sig .tc .vmem S4096x2048 .bf16) (harg2 : arg2.IsWhole) (arg3 : Memref sig .tc .vmem S4096x1 .i32) (harg3 : arg3.IsWhole) (arg4 : Memref sig .tc .vmem S1x8 .f32) (harg4 : arg4.IsWhole) (arg5 : Memref sig .tc .vmem S1x2048x512 .bf16) (harg5 : arg5.IsWhole) (arg6 : Memref sig .tc .vmem S1x1x512 .f32) (harg6 : arg6.IsWhole) (arg7 : Memref sig .tc .vmem S4096x512 .f32) (harg7 : arg7.IsWhole) (hc1 : ¬k0_cond1 i = 1#1) (hc2 : k0_cond2 i = 1#1)
    (x0 : Vec F S4096x2048 .bf16) (x1 : Vec F S4096x1 .i32) (x2 : Vec F S1x8 .f32) (x3 : Vec F S1x2048x512 .bf16) (x4 : Vec F S1x1x512 .f32) (xo : Vec F S4096x512 .f32) : Vec F S4096x512 .f32 :=
  VO5.read (Elt F) (VO5.writes (Elt F) VO5.junk (kernelRunB c i arg2 harg2 arg3 harg3 arg4 harg4 arg5 harg5 arg6 harg6 arg7 harg7 hc1 hc2 x0 x1 x2 x3 x4 xo).1)

/-! ## What the output tile's buffer holds after each point -/

/-- The accumulation: after point `n` the buffer holds the reset case's contents when `n` starts a column block, and
    otherwise the adding case's contents over what point `n - 1` left. -/
def outsAt (c : Dev nD) : (n : ℕ) → n < cfg0.N → Vec F S4096x512 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) ((hcond1 ⟨0, hn⟩).mpr (Nat.zero_mod _)) (fun h => ((hcond2 ⟨0, hn⟩).mp h) (Nat.zero_mod _)) (iblk m c 0 ⟨0, hn⟩) (iblk m c 1 ⟨0, hn⟩) (iblk m c 2 ⟨0, hn⟩) (iblk m c 3 ⟨0, hn⟩) (iblk m c 4 ⟨0, hn⟩)
  | n + 1, hn =>
    if h0 : (n + 1) % 8 = 0 then
      outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) ((hcond1 ⟨n + 1, hn⟩).mpr h0) (fun h => ((hcond2 ⟨n + 1, hn⟩).mp h) h0) (iblk m c 0 ⟨n + 1, hn⟩) (iblk m c 1 ⟨n + 1, hn⟩) (iblk m c 2 ⟨n + 1, hn⟩) (iblk m c 3 ⟨n + 1, hn⟩) (iblk m c 4 ⟨n + 1, hn⟩)
    else
      outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (fun h => h0 ((hcond1 ⟨n + 1, hn⟩).mp h)) ((hcond2 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt c n (Nat.lt_of_succ_lt hn))

/-- `outsAt` at the first point of a column block. -/
theorem outsAt_A (c : Dev nD) (t : Fin cfg0.N) (h0 : t.val % 8 = 0) :
    outsAt m c t.val t.isLt = outA c (grid0.coords t) (ms0 t) (hs0 t) (ms1 t) (hs1 t) (ms2 t) (hs2 t) (ms3 t) (hs3 t) (ms4 t) (hs4 t) (ms5 t) (hs5 t) ((hcond1 t).mpr h0) (fun h => ((hcond2 t).mp h) h0) (iblk m c 0 t) (iblk m c 1 t) (iblk m c 2 t) (iblk m c 3 t) (iblk m c 4 t) := by
  obtain ⟨n, hn⟩ := t
  cases n with
  | zero => exact rfl
  | succ n => exact (dif_pos h0).trans rfl

/-- `outsAt` at a later point of a column block: over what the point before left. -/
theorem outsAt_B (c : Dev nD) (t : Fin cfg0.N) (h0 : ¬t.val % 8 = 0) :
    outsAt m c t.val t.isLt = outB c (grid0.coords t) (ms0 t) (hs0 t) (ms1 t) (hs1 t) (ms2 t) (hs2 t) (ms3 t) (hs3 t) (ms4 t) (hs4 t) (ms5 t) (hs5 t) (fun h => h0 ((hcond1 t).mp h)) ((hcond2 t).mpr h0) (iblk m c 0 t) (iblk m c 1 t) (iblk m c 2 t) (iblk m c 3 t) (iblk m c 4 t) (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t`
    each input's buffer at its block and the output's at `outsAt`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outsAt m c t.val t.isLt
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outsAt m c t.val t.isLt := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- At a later point of a column block the output tile's buffer holds what the body left at the point before: the
    point is not the first, the buffer was not written back between (write-backs follow operation 7 only), and the
    window is live and uncut. -/
theorem before_5_B (c : Dev nD) (t : Fin cfg0.N) (h0 : ¬t.val % 8 = 0) (d) :
    (dats m 0 c).before 5 t d = outsAt m c (t.val - 1) (Nat.lt_of_le_of_lt (Nat.sub_le _ _) t.isLt) := by
  have hN : t.val < 32 := lt_of_lt_of_eq t.isLt (show cfg0.N = 32 from N_0)
  rw [Dat.before_out_kept _ 5 rfl t (by omega) (Bool.eq_false_iff.mpr fun h => by have := (flush0_5 _).mp h; dsimp only at this; omega)
    hlive5 (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 1600000 in
/-- The body at any point: the inputs' memrefs hold their blocks; `t % 8` says which case the point is in; at a
    later operation the output's buffer holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  by_cases h0 : t.val % 8 = 0
  · rw [outsAt_A m c t h0]
    unfold outA
    iintro ⟨HΦ, Ho, ⟨%d0, H0⟩, ⟨%d1, H1⟩, ⟨%d2, H2⟩, ⟨%d3, H3⟩, ⟨%d4, H4⟩, ⟨%d5, H5⟩⟩
    iapply ((kernelRunA c (grid0.coords t) _ _ _ _ _ _ _ _ _ _ _ _ ((hcond1 t).mpr h0) (fun h => ((hcond2 t).mp h) h0) (iblk m c 0 t) (iblk m c 1 t) (iblk m c 2 t) (iblk m c 3 t) (iblk m c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverA c _ _ _ _ _ _ _ _ _ _ _ _ _ _ _ _ _ _ _ _)
  · rw [outsAt_B m c t h0]
    simp only [before_5_B m c t h0]
    unfold outB
    iintro ⟨HΦ, Ho, ⟨%d0, H0⟩, ⟨%d1, H1⟩, ⟨%d2, H2⟩, ⟨%d3, H3⟩, ⟨%d4, H4⟩, ⟨%d5, H5⟩⟩
    iapply ((kernelRunB c (grid0.coords t) _ _ _ _ _ _ _ _ _ _ _ _ (fun h => h0 ((hcond1 t).mp h)) ((hcond2 t).mpr h0) (iblk m c 0 t) (iblk m c 1 t) (iblk m c 2 t) (iblk m c 3 t) (iblk m c 4 t) _).2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverB c _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  have h5 : cfg0.idle 5 (cfg0.grid.coords t) = false := hlive5 _
  rw [h5]
  exact sound_body m c t

/-! ## The run and the frame -/

set_option backward.isDefEq.respectTransparency.types false in
/-- From any memory with zero counters every weakly fair execution of the program terminates, and every final state
    has every array of the pipeline at what the proof data say and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to its end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Hand

end
-- ==== Proof.KIPieces.lean ====
/-
  What the kernel body leaves in the output tile's buffer at a point, as a pure function of the blocks it loaded:
  at operation 0 the operation's term (the payload of the one store); at a later operation the running contents plus
  the term (the load of the buffer reads the whole buffer, so the stored payload is over the running contents).
-/
import proofs.«163268_g51634096833270_cont_9to1_m_282_29_alg».proof.Proof.KIFrame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl
theorem hz3 : (![0, 0, 0] : Fin 3 → Nat) = fun _ => 0 := funext fun a => by fin_cases a <;> rfl

/-- At operation 0 the tile holds the operation's term of the loaded blocks. -/
theorem outA_eq (c : Dev nD) (i : grid0.Coords) (arg2 : Memref sig .tc .vmem S4096x2048 .bf16) (harg2 : arg2.IsWhole) (arg3 : Memref sig .tc .vmem S4096x1 .i32) (harg3 : arg3.IsWhole) (arg4 : Memref sig .tc .vmem S1x8 .f32) (harg4 : arg4.IsWhole) (arg5 : Memref sig .tc .vmem S1x2048x512 .bf16) (harg5 : arg5.IsWhole) (arg6 : Memref sig .tc .vmem S1x1x512 .f32) (harg6 : arg6.IsWhole) (arg7 : Memref sig .tc .vmem S4096x512 .f32) (harg7 : arg7.IsWhole) (hc1 : k0_cond1 i = 1#1) (hc2 : ¬k0_cond2 i = 1#1)
    (x0 : Vec F S4096x2048 .bf16) (x1 : Vec F S4096x1 .i32) (x2 : Vec F S1x8 .f32) (x3 : Vec F S1x2048x512 .bf16) (x4 : Vec F S1x1x512 .f32) :
    outA c i arg2 harg2 arg3 harg3 arg4 harg4 arg5 harg5 arg6 harg6 arg7 harg7 hc1 hc2 x0 x1 x2 x3 x4
      = k0_pay1 (k0_pay3 i x2) (k0_pay4 i x2 x0 x3 x1) (k0_pay5 x4) := by
  unfold outA
  rw [View.read_writes_eq_canon _ _ _ (coverA c i arg2 harg2 arg3 harg3 arg4 harg4 arg5 harg5 arg6 harg6 arg7 harg7 hc1 hc2 x0 x1 x2 x3 x4)]
  unfold kernelRunA
  dsimp only
  sl_unfold_words
  rw [View.canon_unit_zero hz]
  simp only [View.readAt_eq_ld, harg2.read_unread, harg3.read_unread, harg4.read_unread, harg5.read_unread, harg6.read_unread,
    View.ld_unit_zero (S := S1x8) hz, View.ld_unit_zero (S := S4096x2048) hz, View.ld_unit_zero (S := S4096x1) hz,
    View.ld_unit_zero (S := S4096x512) hz, View.ld_unit_zero (S := S1x2048x512) hz3, View.ld_unit_zero (S := S1x1x512) hz3]

/-- At a later operation the tile holds the running contents plus the operation's term. -/
theorem outB_eq (c : Dev nD) (i : grid0.Coords) (arg2 : Memref sig .tc .vmem S4096x2048 .bf16) (harg2 : arg2.IsWhole) (arg3 : Memref sig .tc .vmem S4096x1 .i32) (harg3 : arg3.IsWhole) (arg4 : Memref sig .tc .vmem S1x8 .f32) (harg4 : arg4.IsWhole) (arg5 : Memref sig .tc .vmem S1x2048x512 .bf16) (harg5 : arg5.IsWhole) (arg6 : Memref sig .tc .vmem S1x1x512 .f32) (harg6 : arg6.IsWhole) (arg7 : Memref sig .tc .vmem S4096x512 .f32) (harg7 : arg7.IsWhole) (hc1 : ¬k0_cond1 i = 1#1) (hc2 : k0_cond2 i = 1#1)
    (x0 : Vec F S4096x2048 .bf16) (x1 : Vec F S4096x1 .i32) (x2 : Vec F S1x8 .f32) (x3 : Vec F S1x2048x512 .bf16) (x4 : Vec F S1x1x512 .f32) (xo : Vec F S4096x512 .f32) :
    outB c i arg2 harg2 arg3 harg3 arg4 harg4 arg5 harg5 arg6 harg6 arg7 harg7 hc1 hc2 x0 x1 x2 x3 x4 xo
      = k0_pay2 (k0_pay3 i x2) (k0_pay4 i x2 x0 x3 x1) (k0_pay5 x4) xo := by
  unfold outB
  rw [View.read_writes_eq_canon _ _ _ (coverB c i arg2 harg2 arg3 harg3 arg4 harg4 arg5 harg5 arg6 harg6 arg7 harg7 hc1 hc2 x0 x1 x2 x3 x4 xo)]
  unfold kernelRunB
  dsimp only
  sl_unfold_words
  rw [View.canon_unit_zero hz]
  simp only [View.readAt_eq_ld, harg2.read_unread, harg3.read_unread, harg4.read_unread, harg5.read_unread, harg6.read_unread, harg7.read_unread,
    View.ld_unit_zero (S := S1x8) hz, View.ld_unit_zero (S := S4096x2048) hz, View.ld_unit_zero (S := S4096x1) hz,
    View.ld_unit_zero (S := S4096x512) hz, View.ld_unit_zero (S := S1x2048x512) hz3, View.ld_unit_zero (S := S1x1x512) hz3]

end Cert.KernelIdeal.Pieces

end
-- ==== Proof.Spec.lean ====
/-
  The mixed operation as one function of the argument arrays, index by index, on the extended reals.

  For a row r and a column c the result is a sum over the eight candidate operations i of a rectified affine
  term weighted by the softmax probability p_i of the eight logits:
      out r c = Σ_i  p_i · max ((Σ_k (x r k · μ r) · W i k c) + b i c, 0),          μ r ∈ {0, 1} the row's mask.
  The kernel computes the same number in another arrangement: the mask and the probability are applied AFTER the
  matrix product and INSIDE the rectification,
      out r c = Σ_i  max ((Σ_k x r k · W i k c) · (μ r · p_i) + p_i · b i c, 0).
  The two agree over the reals because p_i ≥ 0 (a nonnegative factor passes through `max · 0`) and multiplication
  distributes over the finite sums; both steps need every entry finite.
-/
import Idealize.ShloMosaic.PureOps.Ideal
import Idealize.ShloMosaic.Lib.ValueIdx

noncomputable section

open scoped BigOperators

namespace Cert.MixedOp

open Idealize.ShloMosaic Idealize.ShloMosaic.ValueIdx

/-- A mask bit as a number: one where the bit is set, zero where it is clear. -/
def maskNum (b : BitVec 1) : EReal := if b = 1#1 then 1 else 0

/-- The largest of the eight logits. -/
def amax (a : Fin 8 → EReal) : EReal := Finset.univ.sup a

/-- The shifted exponential of logit `l`: e^(a_l − max a). -/
def sexp (a : Fin 8 → EReal) (l : Fin 8) : EReal := Ideal.exp (a l - amax a)

/-- The softmax probability of operation `i`. -/
def prob (a : Fin 8 → EReal) (i : Fin 8) : EReal := Ideal.div (sexp a i) (∑ l, sexp a l)

/-- Operation `i`'s term as the kernel arranges it: mask and probability applied to the product, inside the rectification. -/
def kterm (a : Fin 8 → EReal) (i : Fin 8) (xrow wcol : Fin 2048 → EReal) (mb : BitVec 1) (bias : EReal) : EReal :=
  max ((∑ k, xrow k * wcol k) * (maskNum mb * prob a i) + prob a i * bias) 0

/-- Operation `i`'s term as the reference arranges it: the masked row enters the product, the probability weighs the rectified value. -/
def rterm (a : Fin 8 → EReal) (i : Fin 8) (xrow wcol : Fin 2048 → EReal) (mb : BitVec 1) (bias : EReal) : EReal :=
  prob a i * max ((∑ k, (xrow k * maskNum mb) * wcol k) + bias) 0

/-- The kernel's arrangement of the whole result, at row `r` and column `c`. -/
def Gk (x : (⟨2, ![4096, 2048]⟩ : Shape).Idx → EReal) (mask : (⟨1, ![4096]⟩ : Shape).Idx → BitVec 1)
    (al : (⟨1, ![8]⟩ : Shape).Idx → EReal) (W : (⟨3, ![8, 2048, 2048]⟩ : Shape).Idx → EReal)
    (b : (⟨2, ![8, 2048]⟩ : Shape).Idx → EReal) (r : Fin 4096) (c : Fin 2048) : EReal :=
  ∑ i : Fin 8, kterm (fun l => al (ix1 l)) i (fun k => x (ix2 r k)) (fun k => W (ix3 i k c)) (mask (ix1 r)) (b (ix2 i c))

/-- The reference's arrangement of the whole result, at row `r` and column `c`. -/
def Gr (x : (⟨2, ![4096, 2048]⟩ : Shape).Idx → EReal) (mask : (⟨1, ![4096]⟩ : Shape).Idx → BitVec 1)
    (al : (⟨1, ![8]⟩ : Shape).Idx → EReal) (W : (⟨3, ![8, 2048, 2048]⟩ : Shape).Idx → EReal)
    (b : (⟨2, ![8, 2048]⟩ : Shape).Idx → EReal) (r : Fin 4096) (c : Fin 2048) : EReal :=
  ∑ i : Fin 8, rterm (fun l => al (ix1 l)) i (fun k => x (ix2 r k)) (fun k => W (ix3 i k c)) (mask (ix1 r)) (b (ix2 i c))

/-- An array all of whose entries are real numbers. -/
def AllReal {ι : Type} (f : ι → EReal) : Prop := ∀ j, ∃ v : ℝ, f j = (v : EReal)

end Cert.MixedOp

end
-- ==== Proof.PayIdx.lean ====
/-
  The kernel body's stored value read at one row and one block column.

  At the extended reals the body's arithmetic is pointwise apart from four operations: a maximum and two sums over
  the eight lanes of the logit row, and one matrix product. Read at row r and block column q, the body's value is
      max ((Σ_k x r k · w k q) · (μ r · p) + p · b q) 0,
  where p is the softmax probability of this grid step's operation among the eight logits and μ r ∈ {0, 1} is the
  row's mask bit as a number: the specification's kernel term. On later grid steps the body adds that value to
  what the output block already holds.
-/
import proofs.«163268_g51634096833270_cont_9to1_m_282_29_alg».proof.Proof.Gen.KernelIdeal.Skeleton
import proofs.«163268_g51634096833270_cont_9to1_m_282_29_alg».proof.Proof.Spec
import Idealize.ShloMosaic.PureOps.Ideal.Laws
import Idealize.ShloMosaic.Lib.ValueIdx
import Idealize.ShloMosaic.Lib.ValueLayout
import Mathlib.Data.Finset.Fold
import Mathlib.Data.Finset.Lattice.Fold

noncomputable section

open scoped BigOperators

namespace Cert.KernelIdeal.PayIdx

open Cert.KernelIdeal Cert.KernelIdeal.Gen Cert.MixedOp Idealize.ShloMosaic Idealize.ShloMosaic.ValueIdx

/-! ## The pointwise tail: scale the bias row, add, rectify -/

/-- A column [a, 1] broadcast along its unit axis to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The rectified value at (r, q): the product term plus the probability times the bias entry, cut below at zero. -/
theorem pay1_at (p3 : Ideal .f32) (p4 : FVec Ideal S4096x512 .f32) (p5 : FVec Ideal S1x512 .f32)
    (r : Fin 4096) (q : Fin 512) :
    k0_pay1 (F := Ideal) p3 p4 p5 (ix2 r q) = max (p4 (ix2 r q) + p3 * p5 (ix2 (0 : Fin 1) q)) 0 := by
  unfold k0_pay1
  show max (p4 (ix2 r q) + broadcastTo S4096x512 (mulf (broadcast S1x512 p3) p5) broadcasts_S1x512_S4096x512 (ix2 r q))
      (Ideal.ofBits .f32 0x00000000#32) = _
  rw [Ideal.ofBits_zero_f32]
  exact congrArg (fun t => max (p4 (ix2 r q) + t) 0)
    (broadcastTo_1b_ab_apply (mulf (broadcast S1x512 p3) p5) broadcasts_S1x512_S4096x512 r q)

/-- The bias block [1, 1, 512] viewed as a row [1, 512]: entry q. -/
theorem pay5_at (v38 : Vec Ideal S1x1x512 .f32) (q : Fin 512) :
    k0_pay5 (F := Ideal) v38 (ix2 (0 : Fin 1) q) = v38 (ix3 (0 : Fin 1) (0 : Fin 1) q) := by
  unfold k0_pay5
  exact shapeCast_1ab_ab_apply v38 shapeCasts_S1x1x512_S1x512 (0 : Fin 1) q

/-- On a later grid step the body stores what the block holds plus this step's rectified value. -/
theorem pay2_apply (p3 : Ideal .f32) (p4 : FVec Ideal S4096x512 .f32) (p5 : FVec Ideal S1x512 .f32)
    (v52 : Vec Ideal S4096x512 .f32) (j : S4096x512.Idx) :
    k0_pay2 (F := Ideal) p3 p4 p5 v52 j = v52 j + k0_pay1 (F := Ideal) p3 p4 p5 j := by
  unfold k0_pay2
  exact congrArg (· + k0_pay1 (F := Ideal) p3 p4 p5 j)
    (congrFun (shapeCast_self v52 shapeCasts_S4096x512_S4096x512) j)

/-! ## The eight lanes of the logit row -/

/-- The lanes of a [1, 1, 8] vector are numbered by the last coordinate. -/
def laneEquiv : S1x1x8.Idx ≃ Fin 8 where
  toFun j := j 2
  invFun l := ix3 (0 : Fin 1) (0 : Fin 1) l
  left_inv j := funext fun a => Fin.ext (by
    match a with
    | ⟨0, _⟩ => have h : (j 0).val < 1 := (j 0).isLt; show 0 = (j 0).val; omega
    | ⟨1, _⟩ => have h : (j 1).val < 1 := (j 1).isLt; show 0 = (j 1).val; omega
    | ⟨2, _⟩ => rfl)
  right_inv _ := rfl

/-- A sum over the lanes of a [1, 1, 8] vector, reduced to the one-element shape, is the sum of its eight entries. -/
theorem sum_lanes (y : FVec Ideal S1x1x8 .f32) (h : S1x1x8.Reduces [1, 2] S1) (hφ : FKind.Formats .f32)
    (hacc : (0x00000000#32 : BitVec 32) = FKind.add.neutral .f32 hφ) (j : S1.Idx) :
    multiReduction (F := Ideal) .add [1, 2] S1 y 0x00000000#32 h hφ hacc j = ∑ l : Fin 8, y (ix3 (0 : Fin 1) (0 : Fin 1) l) := by
  refine (Ideal.multiReduction_add_total y 0x00000000#32 h (by decide) hφ hacc j).trans ?_
  exact (Equiv.sum_comp laneEquiv.symm y).symm

/-- The f32 pattern of −∞ is the least extended real. -/
theorem ofBits_neg_inf_f32 : Ideal.ofBits .f32 0xFF800000#32 = ⊥ := by simp [Ideal.ofBits, Ideal.ieee]

/-- A maximum over the lanes of a [1, 1, 8] vector from −∞ is the supremum of its eight entries. -/
theorem max_lanes (y : FVec Ideal S1x1x8 .f32) (h : S1x1x8.Reduces [1, 2] S1) (hφ : FKind.Formats .f32)
    (hacc : (0xFF800000#32 : BitVec 32) = FKind.maximumf.neutral .f32 hφ) (j : S1.Idx) :
    multiReduction (F := Ideal) .maximumf [1, 2] S1 y 0xFF800000#32 h hφ hacc j
      = Finset.univ.sup fun l : Fin 8 => y (ix3 (0 : Fin 1) (0 : Fin 1) l) := by
  refine (multiReduction_maximumf_eq_fold y 0xFF800000#32 h hφ hacc j).trans ?_
  show (Finset.univ.filter fun i => h.drop i = j).fold max (Ideal.ofBits .f32 0xFF800000#32) y = _
  rw [ofBits_neg_inf_f32]
  refine le_antisymm ?_ ?_
  · refine (Finset.fold_max_le _).mpr ⟨bot_le, fun x _ => ?_⟩
    have hx : y x = y (ix3 (0 : Fin 1) (0 : Fin 1) (laneEquiv x)) := congrArg y (laneEquiv.left_inv x).symm
    rw [hx]
    exact Finset.le_sup (f := fun l : Fin 8 => y (ix3 (0 : Fin 1) (0 : Fin 1) l)) (Finset.mem_univ _)
  · refine Finset.sup_le fun l _ => ?_
    refine (Finset.le_fold_max _).mpr (Or.inr ⟨ix3 (0 : Fin 1) (0 : Fin 1) l, ?_, le_refl _⟩)
    refine Finset.mem_filter.mpr ⟨Finset.mem_univ _, ?_⟩
    exact funext fun b => Fin.ext (by
      have h3 : ∀ c : Fin S1.rank, S1.size c = 1 := by decide
      have h1 := (h.drop (ix3 (0 : Fin 1) (0 : Fin 1) l) b).isLt
      have h2 := (j b).isLt
      have h4 := h3 b
      omega)

/-- The one-element shape has one index. -/
theorem S1_idx_eq (a b : S1.Idx) : a = b := funext fun c => Fin.ext (by
  have h3 : ∀ c : Fin S1.rank, S1.size c = 1 := by decide
  have h1 : (a c).val < S1.size c := (a c).isLt
  have h2 : (b c).val < S1.size c := (b c).isLt
  have h4 := h3 c
  omega)

/-- A one-element vector viewed [1, 1, 1] and read at its origin is its one entry. -/
theorem extract_one {α : Type} (z : S1.Idx → α) (h : S1.ShapeCasts S1x1x1)
    (hp : ∀ a, (![0, 0, 0] : Fin 3 → Nat) a < S1x1x1.size a) :
    extractAt ![0, 0, 0] (shapeCast S1x1x1 z h) hp = z (ix1 (0 : Fin 1)) := by
  unfold extractAt shapeCast
  exact congrArg z (S1_idx_eq _ _)

/-- The maximum of a row [1, 8] over its lanes, taken through the [1, 1, 8] view and read back as a scalar. -/
theorem row_max (x : FVec Ideal S1x8 .f32) (h1 : S1x8.ShapeCasts S1x1x8) (h : S1x1x8.Reduces [1, 2] S1)
    (hφ : FKind.Formats .f32) (hacc : (0xFF800000#32 : BitVec 32) = 0xFF800000#32)
    (h2 : S1.ShapeCasts S1x1x1) (hp : ∀ a, (![0, 0, 0] : Fin 3 → Nat) a < S1x1x1.size a) :
    extractAt ![0, 0, 0] (shapeCast S1x1x1
        (multiReduction (F := Ideal) .maximumf [1, 2] S1 (shapeCast S1x1x8 x h1) 0xFF800000#32 h hφ hacc) h2) hp
      = Finset.univ.sup fun l : Fin 8 => x (ix2 (0 : Fin 1) l) := by
  refine (extract_one _ h2 hp).trans ?_
  refine (max_lanes _ h hφ hacc _).trans ?_
  exact congrArg (Finset.sup Finset.univ)
    (funext fun l => shapeCast_ab_1ab_apply x h1 (0 : Fin 1) (0 : Fin 1) l)

/-- The sum of a row [1, 8] over its lanes, likewise. -/
theorem row_sum (x : FVec Ideal S1x8 .f32) (h1 : S1x8.ShapeCasts S1x1x8) (h : S1x1x8.Reduces [1, 2] S1)
    (hφ : FKind.Formats .f32) (hacc : (0x00000000#32 : BitVec 32) = 0x00000000#32)
    (h2 : S1.ShapeCasts S1x1x1) (hp : ∀ a, (![0, 0, 0] : Fin 3 → Nat) a < S1x1x1.size a) :
    extractAt ![0, 0, 0] (shapeCast S1x1x1
        (multiReduction (F := Ideal) .add [1, 2] S1 (shapeCast S1x1x8 x h1) 0x00000000#32 h hφ hacc) h2) hp
      = ∑ l : Fin 8, x (ix2 (0 : Fin 1) l) := by
  refine (extract_one _ h2 hp).trans ?_
  refine (sum_lanes _ h hφ hacc _).trans ?_
  exact Finset.sum_congr rfl fun l _ => shapeCast_ab_1ab_apply x h1 (0 : Fin 1) (0 : Fin 1) l

/-- Two lane numbers below eight agree exactly when their 32-bit words do. -/
theorem cmp_lane (l i1 : Fin 8) :
    IntOp.cmpi .eq (BitVec.ofNat 32 l.val) (BitVec.ofNat 32 i1.val) = if l = i1 then 1#1 else 0#1 := by
  revert l i1; decide

/-- A select on "this lane is the step's operation" is the `if` on the lane numbers. -/
theorem select_lane {α : Type} (l i1 : Fin 8) (A B : α) :
    Scalar.select (IntOp.cmpi .eq (BitVec.ofNat 32 l.val) (BitVec.ofNat 32 i1.val)) A B = if l = i1 then A else B := by
  rw [cmp_lane]
  split
  · exact select_one A B
  · exact select_zero A B

/-- The body's scalar weight is the softmax probability of this grid step's operation: the row maximum is the
    supremum of the logits, the denominator the sum of the shifted exponentials, and the masked lane sum picks
    the one lane whose number is the step's. -/
theorem pay3_eq (i : grid0.Coords) (i1 : Fin 8) (hi : (i 1).val = i1.val) (v0 : Vec Ideal S1x8 .f32) :
    k0_pay3 (F := Ideal) i v0 = prob (fun l => v0 (ix2 (0 : Fin 1) l)) i1 := by
  unfold k0_pay3
  simp only [shapeCast_self]
  refine (row_sum _ _ _ _ _ _ _).trans ?_
  rw [row_max, row_sum]
  refine Eq.trans (b := ∑ l : Fin 8, if l = i1 then prob (fun l => v0 (ix2 (0 : Fin 1) l)) l else 0)
    (Finset.sum_congr rfl fun l _ => ?_) (by rw [Finset.sum_ite_eq' Finset.univ i1, if_pos (Finset.mem_univ _)])
  rw [select_apply]
  show Scalar.select (IntOp.cmpi .eq (iota .tc S1x8 32 [1] iota_S1x8_d1_w32 (ix2 (0 : Fin 1) l))
    (BitVec.ofNat 32 (i 1).val)) _ _ = _
  rw [iota_single_apply, hi]
  refine (select_lane l i1 _ _).trans ?_
  exact if_congr Iff.rfl rfl Ideal.ofBits_zero_f32

/-! ## The matrix product at an index

The product's dimension numbers contract the left operand's axis 1 with the right operand's axis 0 and keep
the left axis 0 and the right axis 1: at (r, q) and contraction position k the operands are read at (r, k) and (k, q). -/

theorem lhs_prod_0 (j : S4096x512.Idx) (c : dot_S4096x2048_S2048x512_S4096x512_1_0_0_1_n_n.contr.Idx) :
    (dot_S4096x2048_S2048x512_S4096x512_1_0_0_1_n_n.lhsIdx j c 0).val = (j 0).val := by
  unfold DotDims.lhsIdx
  rw [dif_neg (show ¬(0 : Fin S4096x2048.rank) ∈ dot_S4096x2048_S2048x512_S4096x512_1_0_0_1_n_n.lhsBatch by decide),
    dif_pos (show (0 : Fin S4096x2048.rank) ∈ dot_S4096x2048_S2048x512_S4096x512_1_0_0_1_n_n.lhsNonContracting by decide)]
  rfl

theorem lhs_prod_1 (j : S4096x512.Idx) (c : dot_S4096x2048_S2048x512_S4096x512_1_0_0_1_n_n.contr.Idx) :
    (dot_S4096x2048_S2048x512_S4096x512_1_0_0_1_n_n.lhsIdx j c 1).val = (c ⟨0, by decide⟩).val :=
  dot_S4096x2048_S2048x512_S4096x512_1_0_0_1_n_n.lhsIdx_val_of_single rfl j c

theorem rhs_prod_0 (j : S4096x512.Idx) (c : dot_S4096x2048_S2048x512_S4096x512_1_0_0_1_n_n.contr.Idx) :
    (dot_S4096x2048_S2048x512_S4096x512_1_0_0_1_n_n.rhsIdx j c 0).val = (c ⟨0, by decide⟩).val :=
  dot_S4096x2048_S2048x512_S4096x512_1_0_0_1_n_n.rhsIdx_val_of_single rfl j c

theorem rhs_prod_1 (j : S4096x512.Idx) (c : dot_S4096x2048_S2048x512_S4096x512_1_0_0_1_n_n.contr.Idx) :
    (dot_S4096x2048_S2048x512_S4096x512_1_0_0_1_n_n.rhsIdx j c 1).val = (j 1).val := by
  unfold DotDims.rhsIdx
  rw [dif_neg (show ¬(1 : Fin S2048x512.rank) ∈ dot_S4096x2048_S2048x512_S4096x512_1_0_0_1_n_n.rhsBatch by decide),
    dif_pos (show (1 : Fin S2048x512.rank) ∈ dot_S4096x2048_S2048x512_S4096x512_1_0_0_1_n_n.rhsNonContracting by decide)]
  rfl

/-- The product into a zero accumulator, read at (r, q): the sum over k of the row's entries times the column's. -/
theorem prod_at (x : FVec Ideal S4096x2048 .bf16) (w : FVec Ideal S2048x512 .bf16) (r : Fin 4096) (q : Fin 512) :
    matmul (F := Ideal) dot_S4096x2048_S2048x512_S4096x512_1_0_0_1_n_n none x w (constant (F := Ideal) S4096x512 .f32 0x00000000#32) (ix2 r q)
      = ∑ k : Fin 2048, x (ix2 r k) * w (ix2 k q) := by
  show FloatOps.matmul dot_S4096x2048_S2048x512_S4096x512_1_0_0_1_n_n none x w (constant (F := Ideal) S4096x512 .f32 0x00000000#32) (ix2 r q) = _
  rw [Ideal.matmul_constant_zero_apply,
    ← Equiv.sum_comp (contrEquiv1 dot_S4096x2048_S2048x512_S4096x512_1_0_0_1_n_n 2048 rfl rfl).symm]
  refine Finset.sum_congr rfl fun k _ => ?_
  have hk := contrEquiv1_symm_val dot_S4096x2048_S2048x512_S4096x512_1_0_0_1_n_n 2048 rfl rfl k
  have el : dot_S4096x2048_S2048x512_S4096x512_1_0_0_1_n_n.lhsIdx (ix2 r q) ((contrEquiv1 dot_S4096x2048_S2048x512_S4096x512_1_0_0_1_n_n 2048 rfl rfl).symm k) = ix2 r k :=
    funext fun a => Fin.ext (by
      match a with
      | ⟨0, _⟩ => exact lhs_prod_0 _ _
      | ⟨1, _⟩ => exact (lhs_prod_1 _ _).trans hk)
  have er : dot_S4096x2048_S2048x512_S4096x512_1_0_0_1_n_n.rhsIdx (ix2 r q) ((contrEquiv1 dot_S4096x2048_S2048x512_S4096x512_1_0_0_1_n_n 2048 rfl rfl).symm k) = ix2 k q :=
    funext fun a => Fin.ext (by
      match a with
      | ⟨0, _⟩ => exact (rhs_prod_0 _ _).trans hk
      | ⟨1, _⟩ => exact rhs_prod_1 _ _)
  rw [el, er]

/-! ## The row mask as a number -/

/-- A mask bit widened to 32 bits, tested against zero, widened again and converted to a float is the bit as a number. -/
theorem mask_at (mb : BitVec 1) :
    (FloatOps.sitofp (F := Ideal) .f32 ((IntOp.cmpi .ne (mb.setWidth 32) 0#32).setWidth 32) : Ideal .f32) = maskNum mb := by
  have h0 : ((IntOp.cmpi .ne ((0#1 : BitVec 1).setWidth 32) 0#32).setWidth 32).toInt = 0 := by decide
  have h1 : ((IntOp.cmpi .ne ((1#1 : BitVec 1).setWidth 32) 0#32).setWidth 32).toInt = 1 := by decide
  rcases BitVec.eq_zero_or_eq_one mb with h | h
  · subst h
    show ((((IntOp.cmpi .ne ((0#1 : BitVec 1).setWidth 32) 0#32).setWidth 32).toInt : ℝ) : EReal)
      = if (0#1 : BitVec 1) = 1#1 then 1 else 0
    rw [h0, if_neg (by decide)]
    simp
  · subst h
    show ((((IntOp.cmpi .ne ((1#1 : BitVec 1).setWidth 32) 0#32).setWidth 32).toInt : ℝ) : EReal)
      = if (1#1 : BitVec 1) = 1#1 then 1 else 0
    rw [h1, if_pos rfl]
    simp

/-! ## The product term and the stored value -/

/-- The product term at (r, q): the row-by-column sum times the row's mask number and the step's weight. -/
theorem pay4_at (i : grid0.Coords) (v0 : Vec Ideal S1x8 .f32) (v24 : Vec Ideal S4096x2048 .bf16)
    (v26 : Vec Ideal S1x2048x512 .bf16) (v29 : Vec Ideal S4096x1 .i32) (mb : BitVec 1) (r : Fin 4096) (q : Fin 512)
    (hm : v29 (ix2 r (0 : Fin 1)) = mb.setWidth 32) :
    k0_pay4 (F := Ideal) i v0 v24 v26 v29 (ix2 r q)
      = (∑ k : Fin 2048, v24 (ix2 r k) * v26 (ix3 (0 : Fin 1) k q)) * (maskNum mb * k0_pay3 (F := Ideal) i v0) := by
  unfold k0_pay4
  simp only [shapeCast_self]
  rw [mulf_apply, prod_at, broadcastTo_a1_ab_apply, mulf_apply]
  refine congrArg₂ (· * ·) (Finset.sum_congr rfl fun k _ => congrArg (v24 (ix2 r k) * ·)
    (shapeCast_1ab_ab_apply v26 shapeCasts_S1x2048x512_S2048x512 k q)) ?_
  refine congrArg (· * k0_pay3 (F := Ideal) i v0) ?_
  show FloatOps.sitofp (F := Ideal) .f32 ((IntOp.cmpi .ne (v29 (ix2 r (0 : Fin 1))) 0#32).setWidth 32) = _
  rw [hm]
  exact mask_at mb

/-- THE STORED VALUE AT ROW r AND BLOCK COLUMN q is the specification's kernel term of this grid step's operation:
    the row-by-column product, scaled by the mask number and the softmax weight, plus the weight times the bias entry,
    cut below at zero. -/
theorem pay1_apply (i : grid0.Coords) (i1 : Fin 8) (hi : (i 1).val = i1.val)
    (v0 : Vec Ideal S1x8 .f32) (v24 : Vec Ideal S4096x2048 .bf16) (v26 : Vec Ideal S1x2048x512 .bf16)
    (v29 : Vec Ideal S4096x1 .i32) (v38 : Vec Ideal S1x1x512 .f32)
    (mb : BitVec 1) (r : Fin 4096) (q : Fin 512) (hm : v29 (ix2 r 0) = mb.setWidth 32) :
    k0_pay1 (F := Ideal) (k0_pay3 i v0) (k0_pay4 i v0 v24 v26 v29) (k0_pay5 v38) (ix2 r q)
      = kterm (fun l => v0 (ix2 0 l)) i1 (fun k => v24 (ix2 r k)) (fun k => v26 (ix3 0 k q)) mb (v38 (ix3 0 0 q)) := by
  rw [pay1_at, pay4_at i v0 v24 v26 v29 mb r q hm, pay5_at, pay3_eq i i1 hi v0]
  rfl

end Cert.KernelIdeal.PayIdx

end
-- ==== Proof.KIBlocks.lean ====
/-
  The input windows' blocks, read entry by entry.

  The grid has 4 column tiles of 512 columns and 8 operations; point t is column tile t / 8 and operation t % 8.
  Three inputs (the activations, the row mask, the logits) are staged whole: their block at every point is the whole
  array.  The weights' block at point t is operation t % 8's slab, all 2048 contraction rows, columns
  512·(t / 8) … 512·(t / 8) + 511; the bias's block is the same operation's row over the same columns.
  The arrays the region reads were written by layout-only operations of the arguments: a narrowing of the float format
  (the identity over the extended reals), reshapes that add a unit axis, and a zero-extension of the mask bit to 32 bits.
-/
import proofs.«163268_g51634096833270_cont_9to1_m_282_29_alg».proof.Proof.Gen.KernelIdeal.Frame
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

namespace Cert.KernelIdeal.Blocks

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- The block indices of the five input windows at every grid point: the three whole-array windows sit at block 0 on
    both axes; the weights' and the bias's blocks are operation `t % 8` on the leading axis, block 0 on the middle axis
    and column tile `t / 8` on the last. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val % 8 ∧ win0_3.index t (1 : Fin 3) = 0 ∧ win0_3.index t (2 : Fin 3) = t.val / 8
    ∧ win0_4.index t (0 : Fin 3) = t.val % 8 ∧ win0_4.index t (1 : Fin 3) = 0 ∧ win0_4.index t (2 : Fin 3) = t.val / 8 :=
  (by decide +kernel : ∀ t : Fin grid0.N, _)

/-! ## The arrays the region reads, as written from the arguments -/

/-- The activations narrowed to the shorter float format: over the extended reals, the argument itself. -/
theorem arr_x_eq (c : Dev nD) : (V m c main_call0_v0 : FVec Ideal S4096x2048 .bf16)
    = (truncf .bf16 (m ((c.tc : Thread nD τ).loc main_arg0) : FVec Ideal S4096x2048 .f32) bitsLt_bf16_f32 : FVec Ideal S4096x2048 .bf16) := by
  dsimp only [Gen.V, Gen.hostOps0]; after_results; rfl

/-- The weights narrowed to the shorter float format: over the extended reals, the argument itself. -/
theorem arr_w_eq (c : Dev nD) : (V m c main_call0_v1 : FVec Ideal S8x2048x2048 .bf16)
    = (truncf .bf16 (m ((c.tc : Thread nD τ).loc main_arg3) : FVec Ideal S8x2048x2048 .f32) bitsLt_bf16_f32 : FVec Ideal S8x2048x2048 .bf16) := by
  dsimp only [Gen.V, Gen.hostOps0]; after_results; rfl

/-- The row mask as a column of 32-bit words: each bit zero-extended. -/
theorem arr_mask_eq (c : Dev nD) : (V m c main_call0_v5 : IVec S4096x1 32)
    = (extui 32 (shapeCast S4096x1 (m ((c.tc : Thread nD τ).loc main_arg1) : IVec S4096 1) shapeCasts_S4096_S4096x1 : IVec S4096x1 1) natLt_1_32 : IVec S4096x1 32) := by
  dsimp only [Gen.V, Gen.hostOps0]; after_results; rfl

/-- The logits as a one-row matrix. -/
theorem arr_logits_eq (c : Dev nD) : (V m c main_call0_v3 : FVec Ideal S1x8 .f32)
    = (shapeCast S1x8 (m ((c.tc : Thread nD τ).loc main_arg2) : FVec Ideal S8 .f32) shapeCasts_S8_S1x8 : FVec Ideal S1x8 .f32) := by
  dsimp only [Gen.V, Gen.hostOps0]; after_results; rfl

/-- The bias with a unit middle axis. -/
theorem arr_bias_eq (c : Dev nD) : (V m c main_call0_v4 : FVec Ideal S8x1x2048 .f32)
    = (shapeCast S8x1x2048 (m ((c.tc : Thread nD τ).loc main_arg4) : FVec Ideal S8x2048 .f32) shapeCasts_S8x2048_S8x1x2048 : FVec Ideal S8x1x2048 .f32) := by
  dsimp only [Gen.V, Gen.hostOps0]; after_results; rfl

/-! ## Those arrays read at an index -/

theorem arr_x_apply (c : Dev nD) (r : Fin 4096) (k : Fin 2048) :
    (V m c main_call0_v0 : FVec Ideal S4096x2048 .bf16) (ix2 r k) = m ((c.tc : Thread nD τ).loc main_arg0) (ix2 r k) := by
  rw [arr_x_eq, truncf_apply]

theorem arr_w_apply (c : Dev nD) (i : Fin 8) (k : Fin 2048) (j : Fin 2048) :
    (V m c main_call0_v1 : FVec Ideal S8x2048x2048 .bf16) (ix3 i k j) = m ((c.tc : Thread nD τ).loc main_arg3) (ix3 i k j) := by
  rw [arr_w_eq, truncf_apply]

theorem arr_mask_apply (c : Dev nD) (r : Fin 4096) (u : Fin 1) :
    (V m c main_call0_v5 : IVec S4096x1 32) (ix2 r u) = (m ((c.tc : Thread nD τ).loc main_arg1) (ix1 r)).setWidth 32 := by
  rw [arr_mask_eq, extui_apply]
  refine congrArg (fun b : BitVec 1 => b.setWidth 32) (shapeCast_apply _ _ _ (ix1 r) ?_)
  rw [Shape.rowMajor_val_one, Shape.rowMajor_val_two]
  show r.val = r.val * 1 + u.val
  omega

theorem arr_logits_apply (c : Dev nD) (u : Fin 1) (l : Fin 8) :
    (V m c main_call0_v3 : FVec Ideal S1x8 .f32) (ix2 u l) = m ((c.tc : Thread nD τ).loc main_arg2) (ix1 l) := by
  rw [arr_logits_eq]
  refine shapeCast_apply _ _ _ (ix1 l) ?_
  rw [Shape.rowMajor_val_one, Shape.rowMajor_val_two]
  show l.val = u.val * 8 + l.val
  omega

theorem arr_bias_apply (c : Dev nD) (i : Fin 8) (u : Fin 1) (j : Fin 2048) :
    (V m c main_call0_v4 : FVec Ideal S8x1x2048 .f32) (ix3 i u j) = m ((c.tc : Thread nD τ).loc main_arg4) (ix2 i j) := by
  rw [arr_bias_eq]
  refine shapeCast_apply _ _ _ (ix2 i j) ?_
  rw [Shape.rowMajor_val_two, Shape.rowMajor_val_three]
  show i.val * 2048 + j.val = (i.val * 1 + u.val) * 2048 + j.val
  omega

/-! ## The blocks -/

/-- The activations' block at every point is the whole argument. -/
theorem blk0 (c : Dev nD) (t : Fin cfg0.N) (r : Fin 4096) (k : Fin 2048) :
    iblk m c 0 t (ix2 r k) = m ((c.tc : Thread nD τ).loc main_arg0) (ix2 r k) := by
  obtain ⟨e0, e1, -⟩ := idx_facts t
  unfold iblk
  rw [View.read_apply]
  refine (congrArg (V m c main_call0_v0 : FVec Ideal S4096x2048 .bf16) (?_ : _ = ix2 r k)).trans (arr_x_apply m c r k)
  funext a
  apply Fin.ext
  match a with
  | ⟨0, _⟩ => show win0_0.index t (0 : Fin 2) * 4096 + 1 * r.val = r.val; rw [e0]; omega
  | ⟨1, _⟩ => show win0_0.index t (1 : Fin 2) * 2048 + 1 * k.val = k.val; rw [e1]; omega

/-- The mask's block at every point is the whole column: row `r`'s word is the argument's bit zero-extended. -/
theorem blk1 (c : Dev nD) (t : Fin cfg0.N) (r : Fin 4096) :
    iblk m c 1 t (ix2 r (0 : Fin 1)) = (m ((c.tc : Thread nD τ).loc main_arg1) (ix1 r)).setWidth 32 := by
  obtain ⟨-, -, e0, e1, -⟩ := idx_facts t
  unfold iblk
  rw [View.read_apply]
  refine (congrArg (V m c main_call0_v5 : IVec S4096x1 32) (?_ : _ = ix2 r (0 : Fin 1))).trans (arr_mask_apply m c r 0)
  funext a
  apply Fin.ext
  match a with
  | ⟨0, _⟩ => show win0_1.index t (0 : Fin 2) * 4096 + 1 * r.val = r.val; rw [e0]; omega
  | ⟨1, _⟩ => show win0_1.index t (1 : Fin 2) * 1 + 1 * 0 = 0; rw [e1]

/-- The logits' block at every point is the whole vector. -/
theorem blk2 (c : Dev nD) (t : Fin cfg0.N) (l : Fin 8) :
    iblk m c 2 t (ix2 (0 : Fin 1) l) = m ((c.tc : Thread nD τ).loc main_arg2) (ix1 l) := by
  obtain ⟨-, -, -, -, e0, e1, -⟩ := idx_facts t
  unfold iblk
  rw [View.read_apply]
  refine (congrArg (V m c main_call0_v3 : FVec Ideal S1x8 .f32) (?_ : _ = ix2 (0 : Fin 1) l)).trans (arr_logits_apply m c 0 l)
  funext a
  apply Fin.ext
  match a with
  | ⟨0, _⟩ => show win0_2.index t (0 : Fin 2) * 1 + 1 * 0 = 0; rw [e0]
  | ⟨1, _⟩ => show win0_2.index t (1 : Fin 2) * 8 + 1 * l.val = l.val; rw [e1]; omega

/-- The weights' block at point `t`: operation `t % 8`'s slab, every contraction row, columns `512 (t / 8) + q`. -/
theorem blk3_of (c : Dev nD) (t : Fin cfg0.N) (k : Fin 2048) (q : Fin 512)
    (i : Fin 8) (hi : i.val = t.val % 8) (col : Fin 2048) (hcol : col.val = 512 * (t.val / 8) + q.val) :
    iblk m c 3 t (ix3 (0 : Fin 1) k q) = m ((c.tc : Thread nD τ).loc main_arg3) (ix3 i k col) := by
  obtain ⟨-, -, -, -, -, -, e0, e1, e2, -⟩ := idx_facts t
  unfold iblk
  rw [View.read_apply]
  refine (congrArg (V m c main_call0_v1 : FVec Ideal S8x2048x2048 .bf16) (?_ : _ = ix3 i k col)).trans (arr_w_apply m c i k col)
  funext a
  apply Fin.ext
  match a with
  | ⟨0, _⟩ => show win0_3.index t (0 : Fin 3) * 1 + 1 * 0 = i.val; rw [e0, hi]; omega
  | ⟨1, _⟩ => show win0_3.index t (1 : Fin 3) * 2048 + 1 * k.val = k.val; rw [e1]; omega
  | ⟨2, _⟩ => show win0_3.index t (2 : Fin 3) * 512 + 1 * q.val = col.val; rw [e2, hcol]; omega

/-- The bias's block at point `t`: operation `t % 8`'s row, columns `512 (t / 8) + q`. -/
theorem blk4_of (c : Dev nD) (t : Fin cfg0.N) (q : Fin 512)
    (i : Fin 8) (hi : i.val = t.val % 8) (col : Fin 2048) (hcol : col.val = 512 * (t.val / 8) + q.val) :
    iblk m c 4 t (ix3 (0 : Fin 1) (0 : Fin 1) q) = m ((c.tc : Thread nD τ).loc main_arg4) (ix2 i col) := by
  obtain ⟨-, -, -, -, -, -, -, -, -, e0, e1, e2⟩ := idx_facts t
  unfold iblk
  rw [View.read_apply]
  refine (congrArg (V m c main_call0_v4 : FVec Ideal S8x1x2048 .f32) (?_ : _ = ix3 i (0 : Fin 1) col)).trans (arr_bias_apply m c i 0 col)
  funext a
  apply Fin.ext
  match a with
  | ⟨0, _⟩ => show win0_4.index t (0 : Fin 3) * 1 + 1 * 0 = i.val; rw [e0, hi]; omega
  | ⟨1, _⟩ => show win0_4.index t (1 : Fin 3) * 1 + 1 * 0 = 0; rw [e1]
  | ⟨2, _⟩ => show win0_4.index t (2 : Fin 3) * 512 + 1 * q.val = col.val; rw [e2, hcol]; omega

/-- A grid point is below 32. -/
theorem point_lt (t : Fin cfg0.N) : t.val < 32 := Nat.lt_of_lt_of_eq t.isLt N_0

/-- The operation of point `t`. -/
def opOf (t : Fin cfg0.N) : Fin 8 := ⟨t.val % 8, Nat.mod_lt _ (by norm_num)⟩

/-- The array column under column `q` of point `t`'s tile. -/
def colOf (t : Fin cfg0.N) (q : Fin 512) : Fin 2048 :=
  ⟨512 * (t.val / 8) + q.val, by have := point_lt t; have := q.isLt; omega⟩

theorem opOf_val (t : Fin cfg0.N) : (opOf t).val = t.val % 8 := rfl
theorem colOf_val (t : Fin cfg0.N) (q : Fin 512) : (colOf t q).val = 512 * (t.val / 8) + q.val := rfl

theorem blk3 (c : Dev nD) (t : Fin cfg0.N) (k : Fin 2048) (q : Fin 512) :
    iblk m c 3 t (ix3 (0 : Fin 1) k q) = m ((c.tc : Thread nD τ).loc main_arg3) (ix3 (opOf t) k (colOf t q)) :=
  blk3_of m c t k q (opOf t) rfl (colOf t q) rfl

theorem blk4 (c : Dev nD) (t : Fin cfg0.N) (q : Fin 512) :
    iblk m c 4 t (ix3 (0 : Fin 1) (0 : Fin 1) q) = m ((c.tc : Thread nD τ).loc main_arg4) (ix2 (opOf t) (colOf t q)) :=
  blk4_of m c t q (opOf t) rfl (colOf t q) rfl

end Cert.KernelIdeal.Blocks

end
-- ==== Proof.KIValue.lean ====
/-
  The value of the kernel program on the extended reals: its result array is the kernel's arrangement of the mixed
  operation, `Gk` of the five argument arrays.

  Point t of the grid works on column tile t / 8 and operation t % 8. The output tile's buffer holds, after point t,
  the sum over the operations 0 … t % 8 of the operation's term at the tile's columns (by induction on the point:
  operation 0 stores its term, every later operation adds its term to what the point before left). The buffer is
  written back after operation 7, when it holds the sum over all eight operations, and the four write-backs tile
  the result array by columns.
-/
import proofs.«163268_g51634096833270_cont_9to1_m_282_29_alg».proof.Proof.KIPieces
import proofs.«163268_g51634096833270_cont_9to1_m_282_29_alg».proof.Proof.PayIdx
import proofs.«163268_g51634096833270_cont_9to1_m_282_29_alg».proof.Proof.KIBlocks
import proofs.«163268_g51634096833270_cont_9to1_m_282_29_alg».proof.Proof.Spec
import Idealize.ShloMosaic.Lib.Pipeline.Value

set_option maxRecDepth 16384

noncomputable section

open scoped BigOperators

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand Cert.KernelIdeal.Pieces Cert.KernelIdeal.PayIdx
open Cert.KernelIdeal.Blocks Cert.MixedOp

variable (m : (ℓ : Loc nD τ sig) → Buf (Elt Ideal) ℓ) (ρ : Dev nD → PrngReg)

/-! ## The argument arrays and the terms -/

/-- The five argument arrays on core `c`: x, the row mask, the logits, the weights, the biases. -/
abbrev A0 (c : Dev nD) : S4096x2048.Idx → EReal := m ((c.tc : Thread nD τ).loc main_arg0)
abbrev A1 (c : Dev nD) : S4096.Idx → BitVec 1 := m ((c.tc : Thread nD τ).loc main_arg1)
abbrev A2 (c : Dev nD) : S8.Idx → EReal := m ((c.tc : Thread nD τ).loc main_arg2)
abbrev A3 (c : Dev nD) : S8x2048x2048.Idx → EReal := m ((c.tc : Thread nD τ).loc main_arg3)
abbrev A4 (c : Dev nD) : S8x2048.Idx → EReal := m ((c.tc : Thread nD τ).loc main_arg4)

/-- Operation `i`'s term at row `r` and column `col`, operation and column as natural numbers (zero out of range). -/
def ktN (c : Dev nD) (i col : ℕ) (r : Fin 4096) : EReal :=
  if h : i < 8 ∧ col < 2048 then
    kterm (fun l => A2 m c (ix1 l)) ⟨i, h.1⟩ (fun k => A0 m c (ix2 r k)) (fun k => A3 m c (ix3 (⟨i, h.1⟩ : Fin 8) k (⟨col, h.2⟩ : Fin 2048)))
      (A1 m c (ix1 r)) (A4 m c (ix2 (⟨i, h.1⟩ : Fin 8) (⟨col, h.2⟩ : Fin 2048)))
  else 0

/-- The kernel's arrangement of the result is the sum of the eight terms. -/
theorem Gk_eq_sum (c : Dev nD) (r : Fin 4096) (col : Fin 2048) :
    Gk (A0 m c) (A1 m c) (A2 m c) (A3 m c) (A4 m c) r col = ∑ i ∈ Finset.range 8, ktN m c i col.val r := by
  unfold Gk
  rw [Finset.sum_range]
  refine Finset.sum_congr rfl fun i _ => ?_
  unfold ktN
  rw [dif_pos ⟨i.isLt, col.isLt⟩]

theorem kterm_congr {a a' : Fin 8 → EReal} {i : Fin 8} {xrow xrow' wcol wcol' : Fin 2048 → EReal} {mb : BitVec 1} {bias bias' : EReal}
    (ha : a = a') (hx : xrow = xrow') (hw : wcol = wcol') (hb : bias = bias') :
    kterm a i xrow wcol mb bias = kterm a' i xrow' wcol' mb bias' := by subst ha hx hw hb; rfl

/-- The grid's operation coordinate at point `t` is `t % 8`. -/
theorem coord_op : ∀ t : Fin cfg0.N, (grid0.coords t 1).val = t.val % 8 :=
  (by decide +kernel : ∀ t : Fin grid0.N, (grid0.coords t 1).val = t.val % 8)

/-- The output window's block index at point `t`: row block 0, column tile `t / 8`. -/
theorem idx5 : ∀ t : Fin cfg0.N, win0_5.index t (0 : Fin 2) = 0 ∧ win0_5.index t (1 : Fin 2) = t.val / 8 :=
  (by decide +kernel : ∀ t : Fin grid0.N, win0_5.index t (0 : Fin 2) = 0 ∧ win0_5.index t (1 : Fin 2) = t.val / 8)

/-- The term the body computes at point `t`, read at row `r` and block column `q`: operation `t % 8`'s term at column
    `512 · (t / 8) + q` of the argument arrays. -/
theorem term_at (c : Dev nD) (t : Fin cfg0.N) (r : Fin 4096) (q : Fin 512) :
    k0_pay1 (F := Ideal) (k0_pay3 (grid0.coords t) (iblk m c 2 t)) (k0_pay4 (grid0.coords t) (iblk m c 2 t) (iblk m c 0 t) (iblk m c 3 t) (iblk m c 1 t)) (k0_pay5 (iblk m c 4 t)) (ix2 r q)
      = ktN m c (t.val % 8) (512 * (t.val / 8) + q.val) r := by
  have hN : t.val < 32 := lt_of_lt_of_eq t.isLt (show cfg0.N = 32 from N_0)
  have hq : q.val < 512 := q.isLt
  have hi : t.val % 8 < 8 ∧ 512 * (t.val / 8) + q.val < 2048 := ⟨by omega, by omega⟩
  refine (pay1_apply (grid0.coords t) ⟨t.val % 8, hi.1⟩ (coord_op t) (iblk m c 2 t) (iblk m c 0 t) (iblk m c 3 t) (iblk m c 1 t) (iblk m c 4 t)
    (A1 m c (ix1 r)) r q (blk1 m c t r)).trans ?_
  unfold ktN
  rw [dif_pos hi]
  exact kterm_congr (funext fun l => blk2 m c t l) (funext fun k => blk0 m c t r k) (funext fun k => blk3_of m c t k q ⟨t.val % 8, hi.1⟩ rfl ⟨512 * (t.val / 8) + q.val, hi.2⟩ rfl) (blk4_of m c t q ⟨t.val % 8, hi.1⟩ rfl ⟨512 * (t.val / 8) + q.val, hi.2⟩ rfl)

/-! ## The accumulation -/

/-- After point `n` the output tile's buffer holds, at row `r` and block column `q`, the sum of the terms of the
    operations 0 … n % 8 at column `512 · (n / 8) + q`. -/
theorem outsAt_eq (c : Dev nD) : ∀ (n : ℕ) (h : n < cfg0.N) (r : Fin 4096) (q : Fin 512),
    outsAt m c n h (ix2 r q) = ∑ i ∈ Finset.range (n % 8 + 1), ktN m c i (512 * (n / 8) + q.val) r
  | 0, h, r, q => by
    rw [outsAt_A m c ⟨0, h⟩ rfl, outA_eq]
    refine (term_at m c ⟨0, h⟩ r q).trans ?_
    show ktN m c 0 (512 * (0 / 8) + q.val) r = ∑ i ∈ Finset.range 1, ktN m c i (512 * (0 / 8) + q.val) r
    exact (Finset.sum_range_one (fun i => ktN m c i (512 * (0 / 8) + q.val) r)).symm
  | n + 1, h, r, q => by
    by_cases h0 : (n + 1) % 8 = 0
    · rw [outsAt_A m c ⟨n + 1, h⟩ h0, outA_eq]
      refine (term_at m c ⟨n + 1, h⟩ r q).trans ?_
      show ktN m c ((n + 1) % 8) (512 * ((n + 1) / 8) + q.val) r = _
      rw [h0, zero_add, Finset.sum_range_one]
    · rw [outsAt_B m c ⟨n + 1, h⟩ h0, outB_eq]
      refine (pay2_apply _ _ _ _ _).trans ?_
      refine (congrArg₂ (· + ·) (outsAt_eq c n (Nat.lt_of_succ_lt h) r q) (term_at m c ⟨n + 1, h⟩ r q)).trans ?_
      show (∑ i ∈ Finset.range (n % 8 + 1), ktN m c i (512 * (n / 8) + q.val) r) + ktN m c ((n + 1) % 8) (512 * ((n + 1) / 8) + q.val) r = _
      have e1 : (n + 1) % 8 = n % 8 + 1 := by omega
      have e2 : (n + 1) / 8 = n / 8 := by omega
      rw [e1, e2, Finset.sum_range_succ (fun i => ktN m c i (512 * (n / 8) + q.val) r) (n % 8 + 1)]

/-! ## The result array -/

/-- The result array the claim names: the kernel's arrangement of the mixed operation of the argument arrays. -/
def G (c : Dev nD) : Buf (Elt Ideal) ((c.tc : Thread nD τ).loc main_v0) :=
  fun j => Gk (A0 m c) (A1 m c) (A2 m c) (A3 m c) (A4 m c) (j 0) (j 1)

/-- What a write-back writes: after operation 7 the tile holds the sum over all eight operations, which is the
    tile's block of the result array. -/
theorem flushed_eq (c : Dev nD) (t : Fin cfg0.N) (hf : (cfg0.win 5).flush t = true) :
    (dats m 0 c).flushed 5 t = ((cfg0.win 5).blk t).view.read (Elt Ideal) (G m c) := by
  have h7 : t.val % 8 = 7 := (flush0_5 t).mp hf
  have hN : t.val < 32 := lt_of_lt_of_eq t.isLt (show cfg0.N = 32 from N_0)
  show (cfg0.win 5).cut (grid0.coords t) ((dats m 0 c).after 5 t) = _
  rw [after_5]
  refine funext fun (y : S4096x512.Idx) => ?_
  obtain ⟨r, q, rfl⟩ : ∃ (r : Fin 4096) (q : Fin 512), y = ix2 r q := ⟨y 0, y 1, eq_ix2 y⟩
  have hq : q.val < 512 := q.isLt
  obtain ⟨e0, e1⟩ := idx5 t
  have hcol : 512 * (t.val / 8) + q.val < 2048 := by omega
  have hemb : ((cfg0.win 5).blk t).view.emb (ix2 r q) = ix2 r (⟨512 * (t.val / 8) + q.val, hcol⟩ : Fin 2048) := by
    funext a; apply Fin.ext
    match a with
    | ⟨0, _⟩ => show win0_5.index t (0 : Fin 2) * 4096 + 1 * r.val = r.val; rw [e0]; omega
    | ⟨1, _⟩ => show win0_5.index t (1 : Fin 2) * 512 + 1 * q.val = 512 * (t.val / 8) + q.val; rw [e1]; omega
  show outsAt m c t.val t.isLt (ix2 r q) = G m c (((cfg0.win 5).blk t).view.emb (ix2 r q))
  rw [hemb, outsAt_eq m c t.val t.isLt r q, h7]
  show ∑ i ∈ Finset.range 8, ktN m c i (512 * (t.val / 8) + q.val) r
    = Gk (A0 m c) (A1 m c) (A2 m c) (A3 m c) (A4 m c) r (⟨512 * (t.val / 8) + q.val, hcol⟩ : Fin 2048)
  exact (Gk_eq_sum m c r ⟨512 * (t.val / 8) + q.val, hcol⟩).symm

/-- An index of the result array is in point `t`'s block iff each coordinate is in the block's range. -/
theorem mem_blk5 (t : Fin cfg0.N) (i : S4096x2048.Idx) :
    i ∈ ((cfg0.win 5).blk t).view.set ↔ ∀ a : Fin 2, win0_5.index t a * S4096x512.size a ≤ (i a).val ∧ (i a).val < win0_5.index t a * S4096x512.size a + S4096x512.size a := by
  show i ∈ ((View.whole main_v0).slice (win0_5.rect t)).set ↔ _
  rw [View.set_slice_whole, Rect.mem_set_unit]
  exact Iff.rfl

/-- Every index of the result array lies in the block some write-back writes: the one after operation 7 of its
    column tile. -/
theorem cover (i : S4096x2048.Idx) : ∃ t : Fin cfg0.N, (cfg0.win 5).flush t = true ∧ i ∈ ((cfg0.win 5).blk t).view.set := by
  have hi0 : (i 0).val < 4096 := (i 0).isLt
  have hi1 : (i 1).val < 2048 := (i 1).isLt
  have hlt : 8 * ((i 1).val / 512) + 7 < cfg0.N := by rw [show cfg0.N = 32 from N_0]; omega
  refine ⟨⟨8 * ((i 1).val / 512) + 7, hlt⟩, (flush0_5 _).mpr (by show (8 * ((i 1).val / 512) + 7) % 8 = 7; omega), ?_⟩
  rw [mem_blk5]
  obtain ⟨e0, e1⟩ := idx5 ⟨8 * ((i 1).val / 512) + 7, hlt⟩
  have e1' : win0_5.index ⟨8 * ((i 1).val / 512) + 7, hlt⟩ (1 : Fin 2) = (8 * ((i 1).val / 512) + 7) / 8 := e1
  intro a
  match a with
  | ⟨0, _⟩ =>
    show win0_5.index ⟨8 * ((i 1).val / 512) + 7, hlt⟩ (0 : Fin 2) * 4096 ≤ (i 0).val ∧ (i 0).val < win0_5.index ⟨8 * ((i 1).val / 512) + 7, hlt⟩ (0 : Fin 2) * 4096 + 4096
    rw [e0]; omega
  | ⟨1, _⟩ =>
    show win0_5.index ⟨8 * ((i 1).val / 512) + 7, hlt⟩ (1 : Fin 2) * 512 ≤ (i 1).val ∧ (i 1).val < win0_5.index ⟨8 * ((i 1).val / 512) + 7, hlt⟩ (1 : Fin 2) * 512 + 512
    rw [e1']; omega

/-- The result array after the run. -/
theorem final (c : Dev nD) : (dats m 0 c).arrAt 5 cfg0.N = G m c :=
  (dats m 0 c).arrAt_eq_of_cover 5 (G m c) (flushed_eq m c) cover

/-! ## The run, read -/

/-- Every weakly fair execution of the program terminates with the result array at `G` and the arguments unchanged. -/
theorem run : θ_run defs (onTc (τ := τ) (main (F := Ideal))) ⟨m, fun _ => 0, ρ⟩ fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 5).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main (F := Ideal) m ρ)

end Cert.KernelIdeal.Val

end
-- ==== Proof.RefValue.lean ====
/-
  The reference's value, index by index.

  The reference computes, from the argument arrays x (rows), the row mask, the eight logits, the eight weight
  matrices W and the eight bias rows b:  the softmax p of the logits (shifted by their maximum), the masked rows
  x r k · μ r, and then, candidate by candidate, p_i · max ((Σ_k (x r k · μ r) · W i k c) + b i c, 0), added up from a
  zero array. Read at row r and column c this is the specification's `Gr`:
      out r c = Σ_i p_i · max ((Σ_k (x r k · μ r) · W i k c) + b i c, 0).
  The steps: the maximum of the eight logits is the supremum over the eight (the fold starts from −∞, the bottom of
  the extended reals, and the further maximum with −∞ changes nothing); the sum of the eight shifted exponentials is a
  sum over `Fin 8`; the mask bit converted to a number is 1 or 0; every slice, reshape and broadcast only renames an
  index; the sum over the contraction index stays a symbolic sum over `Fin 2048`; and the eight terms added to the
  zero array in order are the sum over `Fin 8`.
-/
import proofs.«163268_g51634096833270_cont_9to1_m_282_29_alg».proof.Defs
import proofs.«163268_g51634096833270_cont_9to1_m_282_29_alg».proof.Proof.Gen.ReferenceIdeal.Run
import proofs.«163268_g51634096833270_cont_9to1_m_282_29_alg».proof.Proof.Gen.ReferenceIdeal.Read
import proofs.«163268_g51634096833270_cont_9to1_m_282_29_alg».proof.Proof.Spec
import Idealize.ShloMosaic.Lib.Pipeline.Value
import Idealize.ShloMosaic.Lib.ValueIdx
import Idealize.ShloMosaic.Lib.IdealHost
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.ValueIdx Cert.MixedOp
open scoped BigOperators

/-! ## Small facts about indices, bit patterns and the mask -/

/-- A one-element axis has one index. -/
theorem S1_idx_eq (k : S1.Idx) : k = ix1 0 := by
  rw [eq_ix1 k]; congr 1; exact Fin.ext (by have := (k 0).isLt; simpa using this)

/-- A one-element array reshaped to a scalar reads its one element. -/
theorem scalar_read {α : Type} (v : S1.Idx → α) (j : S_.Idx) : shapeCast S_ v shapeCasts_S1_S_ j = v (ix1 0) := by
  unfold shapeCast; exact congrArg v (S1_idx_eq _)

/-- The indices of an eight-element array are the numbers below eight. -/
def e8 : Fin 8 ≃ S8.Idx where
  toFun l := ix1 l
  invFun j := j 0
  left_inv _ := rfl
  right_inv j := (eq_ix1 j).symm

/-- A sum over the indices of an eight-element array is a sum over the numbers below eight. -/
theorem sum8 (f : S8.Idx → EReal) : ∑ j, f j = ∑ l : Fin 8, f (ix1 l) := (Equiv.sum_comp e8 f).symm

/-- The f32 pattern of −∞ is the bottom of the extended reals. -/
theorem ofBits_ninf : Ideal.ofBits .f32 0xFF800000#32 = ⊥ := by simp [Ideal.ofBits, Ideal.ieee]

/-- A mask bit converted to a number, unsigned, is one where the bit is set and zero where it is clear. -/
theorem uitofp_mask (m : BitVec 1) : FloatOps.uitofp (F := Ideal) .f32 m = maskNum m := by
  show ((m.toNat : ℝ) : EReal) = maskNum m
  unfold maskNum
  by_cases h : m = 1#1
  · subst h; simp
  · rw [if_neg h, eq_zero_of_ne_one h]; simp

/-- The maximum of the eight logits, folded from −∞, is their supremum. -/
theorem reduce_max_eq (al : S8.Idx → EReal) (j : S_.Idx) :
    Host.reduce FloatOps.maximumf al (constant (F := Ideal) S_ .f32 0xFF800000#32) reducesTo_S8_S_d0 h_S_ j
      = amax (fun l => al (ix1 l)) := by
  rw [Host.reduce_eq_fold]
  have hf : (Finset.univ.filter fun i : S8.Idx => reducesTo_S8_S_d0.drop i = j) = Finset.univ :=
    Finset.filter_true_of_mem fun i _ => funext fun a => a.elim0
  rw [hf]
  show Finset.univ.fold max (Ideal.ofBits .f32 0xFF800000#32) al = _
  rw [ofBits_ninf]
  unfold amax
  rw [Finset.sup_univ_eq_iSup]
  show Finset.univ.sup al = _
  rw [Finset.sup_univ_eq_iSup]
  exact (Equiv.iSup_comp (g := al) e8).symm

/-! ## The softmax of the eight logits -/

/-- The shift: the largest logit. -/
theorem v1_read (al : (⟨S8, .f32⟩ : BufTy).Contents (Elt Ideal)) (j : S_.Idx) :
    val_main_v1 (F := Ideal) al j = amax (fun l => al (ix1 l)) := by
  rw [val_main_v1_apply, val_main_cst_0_apply]
  unfold val_main_v0 val_main_cst
  rw [reduce_max_eq]
  simp only [Ideal.maximumf_def, Ideal.ofBits_def, ofBits_ninf, max_bot_left]

/-- The shifted logit. -/
theorem v4_read (al : (⟨S8, .f32⟩ : BufTy).Contents (Elt Ideal)) (i : Fin 8) :
    val_main_v4 (F := Ideal) al (ix1 i) = al (ix1 i) - amax (fun l => al (ix1 l)) := by
  rw [val_main_v4_apply, val_main_v3_apply, val_main_v2_apply, v1_read]; rfl

/-- The shifted exponential. -/
theorem v5_read (al : (⟨S8, .f32⟩ : BufTy).Contents (Elt Ideal)) (i : Fin 8) :
    val_main_v5 (F := Ideal) al (ix1 i) = sexp (fun l => al (ix1 l)) i := by
  rw [val_main_v5_apply, v4_read]; rfl

/-- The normalizer: the sum of the eight shifted exponentials. -/
theorem v6_read (al : (⟨S8, .f32⟩ : BufTy).Contents (Elt Ideal)) (j : S_.Idx) :
    val_main_v6 (F := Ideal) al j = ∑ l : Fin 8, sexp (fun l => al (ix1 l)) l := by
  rw [val_main_v6_apply, val_main_cst_1_apply, sum8]
  simp only [v5_read, Ideal.ofBits_def, Ideal.ofBits_zero_f32, zero_add]

/-- The softmax probability of candidate `i`. -/
theorem v9_read (al : (⟨S8, .f32⟩ : BufTy).Contents (Elt Ideal)) (i : Fin 8) :
    val_main_v9 (F := Ideal) al (ix1 i) = prob (fun l => al (ix1 l)) i := by
  rw [val_main_v9_apply, val_main_v8_apply, val_main_v7_apply, v6_read, v5_read]; rfl

/-! ## The masked rows -/

/-- The row entry times its row's mask number. -/
theorem v13_read (x : (⟨S4096x2048, .f32⟩ : BufTy).Contents (Elt Ideal)) (mask : (⟨S4096, .i1⟩ : BufTy).Contents (Elt Ideal))
    (r : Fin 4096) (k : Fin 2048) :
    val_main_v13 (F := Ideal) x mask (ix2 r k) = x (ix2 r k) * maskNum (mask (ix1 r)) := by
  rw [val_main_v13_apply, val_main_v12_apply, val_main_v11_apply, val_main_v10_apply, uitofp_mask]
  have e : idx_main_v10 (idx_main_v12 (ix2 r k)) = ix1 r := funext fun a => Fin.ext (by match a with | ⟨0, _⟩ => rfl)
  rw [e]; rfl

/-! ## The eight candidates -/

/-! ### Candidate 0: its weight slice, its bias row, its probability, its weighted rectified term -/

/-- The 0-th slice of the weights, seen as a matrix, at row `k` and column `c`. -/
theorem W_0 (W : (⟨S8x2048x2048, .f32⟩ : BufTy).Contents (Elt Ideal)) (k c : Fin 2048) :
    val_main_v16 (F := Ideal) W (ix2 k c) = W (ix3 0 k c) := by
  rw [val_main_v16_apply, val_main_v15_apply]
  have hk := k.isLt
  have hc := c.isLt
  exact congrArg W (funext fun a => Fin.ext (by
    match a with
    | ⟨0, _⟩ => rfl
    | ⟨1, _⟩ => show (k.val * 2048 + c.val) / 2048 % 2048 = k.val; omega
    | ⟨2, _⟩ => show (k.val * 2048 + c.val) % 2048 = c.val; omega))

/-- The 0-th bias row, spread over every row of the result, at column `c`. -/
theorem b_0 (b : (⟨S8x2048, .f32⟩ : BufTy).Contents (Elt Ideal)) (r : Fin 4096) (c : Fin 2048) :
    val_main_v21 (F := Ideal) b (ix2 r c) = b (ix2 0 c) := by
  rw [val_main_v21_apply, val_main_v20_apply, val_main_v19_apply, val_main_v18_apply]
  have hc := c.isLt
  exact congrArg b (funext fun a => Fin.ext (by
    match a with
    | ⟨0, _⟩ => rfl
    | ⟨1, _⟩ => show c.val % 2048 = c.val; omega))

/-- The 0-th softmax probability, spread over the whole result. -/
theorem p_0 (al : (⟨S8, .f32⟩ : BufTy).Contents (Elt Ideal)) (j : S4096x2048.Idx) :
    val_main_v26 (F := Ideal) al j = prob (fun l => al (ix1 l)) 0 := by
  rw [val_main_v26_apply]
  unfold val_main_v25
  rw [scalar_read, val_main_v24_apply]
  have e : idx_main_v24 (ix1 0) = ix1 0 := funext fun a => Fin.ext (by match a with | ⟨0, _⟩ => rfl)
  rw [e, v9_read]

/-- The 0-th weighted term at row `r` and column `c`: the probability times the rectified affine value of the masked row. -/
theorem term_0 (x : (⟨S4096x2048, .f32⟩ : BufTy).Contents (Elt Ideal)) (mask : (⟨S4096, .i1⟩ : BufTy).Contents (Elt Ideal))
    (al : (⟨S8, .f32⟩ : BufTy).Contents (Elt Ideal)) (W : (⟨S8x2048x2048, .f32⟩ : BufTy).Contents (Elt Ideal))
    (b : (⟨S8x2048, .f32⟩ : BufTy).Contents (Elt Ideal)) (r : Fin 4096) (c : Fin 2048) :
    val_main_v27 (F := Ideal) x mask al W b (ix2 r c)
      = rterm (fun l => al (ix1 l)) 0 (fun k => x (ix2 r k)) (fun k => W (ix3 0 k c)) (mask (ix1 r)) (b (ix2 0 c)) := by
  rw [val_main_v27_apply, p_0, val_main_v23_apply, val_main_v22_apply, b_0, val_main_v17_apply, val_main_call0_v0_apply,
    val_main_call0_cst_apply]
  have el : ∀ k, lidx_main_v17 (ix2 r c) k = ix2 r k := fun k => funext fun a => Fin.ext (by
    match a with
    | ⟨0, _⟩ => rfl
    | ⟨1, _⟩ => rfl)
  have er : ∀ k, ridx_main_v17 (ix2 r c) k = ix2 k c := fun k => funext fun a => Fin.ext (by
    match a with
    | ⟨0, _⟩ => rfl
    | ⟨1, _⟩ => rfl)
  simp only [el, er, v13_read, W_0, Ideal.mulf_def, Ideal.addf_def, Ideal.maximumf_def, Ideal.ofBits_def,
    Ideal.ofBits_zero_f32]
  rfl

/-! ### Candidate 1: its weight slice, its bias row, its probability, its weighted rectified term -/

/-- The 1-th slice of the weights, seen as a matrix, at row `k` and column `c`. -/
theorem W_1 (W : (⟨S8x2048x2048, .f32⟩ : BufTy).Contents (Elt Ideal)) (k c : Fin 2048) :
    val_main_v30 (F := Ideal) W (ix2 k c) = W (ix3 1 k c) := by
  rw [val_main_v30_apply, val_main_v29_apply]
  have hk := k.isLt
  have hc := c.isLt
  exact congrArg W (funext fun a => Fin.ext (by
    match a with
    | ⟨0, _⟩ => rfl
    | ⟨1, _⟩ => show (k.val * 2048 + c.val) / 2048 % 2048 = k.val; omega
    | ⟨2, _⟩ => show (k.val * 2048 + c.val) % 2048 = c.val; omega))

/-- The 1-th bias row, spread over every row of the result, at column `c`. -/
theorem b_1 (b : (⟨S8x2048, .f32⟩ : BufTy).Contents (Elt Ideal)) (r : Fin 4096) (c : Fin 2048) :
    val_main_v35 (F := Ideal) b (ix2 r c) = b (ix2 1 c) := by
  rw [val_main_v35_apply, val_main_v34_apply, val_main_v33_apply, val_main_v32_apply]
  have hc := c.isLt
  exact congrArg b (funext fun a => Fin.ext (by
    match a with
    | ⟨0, _⟩ => rfl
    | ⟨1, _⟩ => show c.val % 2048 = c.val; omega))

/-- The 1-th softmax probability, spread over the whole result. -/
theorem p_1 (al : (⟨S8, .f32⟩ : BufTy).Contents (Elt Ideal)) (j : S4096x2048.Idx) :
    val_main_v40 (F := Ideal) al j = prob (fun l => al (ix1 l)) 1 := by
  rw [val_main_v40_apply]
  unfold val_main_v39
  rw [scalar_read, val_main_v38_apply]
  have e : idx_main_v38 (ix1 0) = ix1 1 := funext fun a => Fin.ext (by match a with | ⟨0, _⟩ => rfl)
  rw [e, v9_read]

/-- The 1-th weighted term at row `r` and column `c`: the probability times the rectified affine value of the masked row. -/
theorem term_1 (x : (⟨S4096x2048, .f32⟩ : BufTy).Contents (Elt Ideal)) (mask : (⟨S4096, .i1⟩ : BufTy).Contents (Elt Ideal))
    (al : (⟨S8, .f32⟩ : BufTy).Contents (Elt Ideal)) (W : (⟨S8x2048x2048, .f32⟩ : BufTy).Contents (Elt Ideal))
    (b : (⟨S8x2048, .f32⟩ : BufTy).Contents (Elt Ideal)) (r : Fin 4096) (c : Fin 2048) :
    val_main_v41 (F := Ideal) x mask al W b (ix2 r c)
      = rterm (fun l => al (ix1 l)) 1 (fun k => x (ix2 r k)) (fun k => W (ix3 1 k c)) (mask (ix1 r)) (b (ix2 1 c)) := by
  rw [val_main_v41_apply, p_1, val_main_v37_apply, val_main_v36_apply, b_1, val_main_v31_apply, val_main_call1_v0_apply,
    val_main_call1_cst_apply]
  have el : ∀ k, lidx_main_v31 (ix2 r c) k = ix2 r k := fun k => funext fun a => Fin.ext (by
    match a with
    | ⟨0, _⟩ => rfl
    | ⟨1, _⟩ => rfl)
  have er : ∀ k, ridx_main_v31 (ix2 r c) k = ix2 k c := fun k => funext fun a => Fin.ext (by
    match a with
    | ⟨0, _⟩ => rfl
    | ⟨1, _⟩ => rfl)
  simp only [el, er, v13_read, W_1, Ideal.mulf_def, Ideal.addf_def, Ideal.maximumf_def, Ideal.ofBits_def,
    Ideal.ofBits_zero_f32]
  rfl

/-! ### Candidate 2: its weight slice, its bias row, its probability, its weighted rectified term -/

/-- The 2-th slice of the weights, seen as a matrix, at row `k` and column `c`. -/
theorem W_2 (W : (⟨S8x2048x2048, .f32⟩ : BufTy).Contents (Elt Ideal)) (k c : Fin 2048) :
    val_main_v44 (F := Ideal) W (ix2 k c) = W (ix3 2 k c) := by
  rw [val_main_v44_apply, val_main_v43_apply]
  have hk := k.isLt
  have hc := c.isLt
  exact congrArg W (funext fun a => Fin.ext (by
    match a with
    | ⟨0, _⟩ => rfl
    | ⟨1, _⟩ => show (k.val * 2048 + c.val) / 2048 % 2048 = k.val; omega
    | ⟨2, _⟩ => show (k.val * 2048 + c.val) % 2048 = c.val; omega))

/-- The 2-th bias row, spread over every row of the result, at column `c`. -/
theorem b_2 (b : (⟨S8x2048, .f32⟩ : BufTy).Contents (Elt Ideal)) (r : Fin 4096) (c : Fin 2048) :
    val_main_v49 (F := Ideal) b (ix2 r c) = b (ix2 2 c) := by
  rw [val_main_v49_apply, val_main_v48_apply, val_main_v47_apply, val_main_v46_apply]
  have hc := c.isLt
  exact congrArg b (funext fun a => Fin.ext (by
    match a with
    | ⟨0, _⟩ => rfl
    | ⟨1, _⟩ => show c.val % 2048 = c.val; omega))

/-- The 2-th softmax probability, spread over the whole result. -/
theorem p_2 (al : (⟨S8, .f32⟩ : BufTy).Contents (Elt Ideal)) (j : S4096x2048.Idx) :
    val_main_v54 (F := Ideal) al j = prob (fun l => al (ix1 l)) 2 := by
  rw [val_main_v54_apply]
  unfold val_main_v53
  rw [scalar_read, val_main_v52_apply]
  have e : idx_main_v52 (ix1 0) = ix1 2 := funext fun a => Fin.ext (by match a with | ⟨0, _⟩ => rfl)
  rw [e, v9_read]

/-- The 2-th weighted term at row `r` and column `c`: the probability times the rectified affine value of the masked row. -/
theorem term_2 (x : (⟨S4096x2048, .f32⟩ : BufTy).Contents (Elt Ideal)) (mask : (⟨S4096, .i1⟩ : BufTy).Contents (Elt Ideal))
    (al : (⟨S8, .f32⟩ : BufTy).Contents (Elt Ideal)) (W : (⟨S8x2048x2048, .f32⟩ : BufTy).Contents (Elt Ideal))
    (b : (⟨S8x2048, .f32⟩ : BufTy).Contents (Elt Ideal)) (r : Fin 4096) (c : Fin 2048) :
    val_main_v55 (F := Ideal) x mask al W b (ix2 r c)
      = rterm (fun l => al (ix1 l)) 2 (fun k => x (ix2 r k)) (fun k => W (ix3 2 k c)) (mask (ix1 r)) (b (ix2 2 c)) := by
  rw [val_main_v55_apply, p_2, val_main_v51_apply, val_main_v50_apply, b_2, val_main_v45_apply, val_main_call2_v0_apply,
    val_main_call2_cst_apply]
  have el : ∀ k, lidx_main_v45 (ix2 r c) k = ix2 r k := fun k => funext fun a => Fin.ext (by
    match a with
    | ⟨0, _⟩ => rfl
    | ⟨1, _⟩ => rfl)
  have er : ∀ k, ridx_main_v45 (ix2 r c) k = ix2 k c := fun k => funext fun a => Fin.ext (by
    match a with
    | ⟨0, _⟩ => rfl
    | ⟨1, _⟩ => rfl)
  simp only [el, er, v13_read, W_2, Ideal.mulf_def, Ideal.addf_def, Ideal.maximumf_def, Ideal.ofBits_def,
    Ideal.ofBits_zero_f32]
  rfl

/-! ### Candidate 3: its weight slice, its bias row, its probability, its weighted rectified term -/

/-- The 3-th slice of the weights, seen as a matrix, at row `k` and column `c`. -/
theorem W_3 (W : (⟨S8x2048x2048, .f32⟩ : BufTy).Contents (Elt Ideal)) (k c : Fin 2048) :
    val_main_v58 (F := Ideal) W (ix2 k c) = W (ix3 3 k c) := by
  rw [val_main_v58_apply, val_main_v57_apply]
  have hk := k.isLt
  have hc := c.isLt
  exact congrArg W (funext fun a => Fin.ext (by
    match a with
    | ⟨0, _⟩ => rfl
    | ⟨1, _⟩ => show (k.val * 2048 + c.val) / 2048 % 2048 = k.val; omega
    | ⟨2, _⟩ => show (k.val * 2048 + c.val) % 2048 = c.val; omega))

/-- The 3-th bias row, spread over every row of the result, at column `c`. -/
theorem b_3 (b : (⟨S8x2048, .f32⟩ : BufTy).Contents (Elt Ideal)) (r : Fin 4096) (c : Fin 2048) :
    val_main_v63 (F := Ideal) b (ix2 r c) = b (ix2 3 c) := by
  rw [val_main_v63_apply, val_main_v62_apply, val_main_v61_apply, val_main_v60_apply]
  have hc := c.isLt
  exact congrArg b (funext fun a => Fin.ext (by
    match a with
    | ⟨0, _⟩ => rfl
    | ⟨1, _⟩ => show c.val % 2048 = c.val; omega))

/-- The 3-th softmax probability, spread over the whole result. -/
theorem p_3 (al : (⟨S8, .f32⟩ : BufTy).Contents (Elt Ideal)) (j : S4096x2048.Idx) :
    val_main_v68 (F := Ideal) al j = prob (fun l => al (ix1 l)) 3 := by
  rw [val_main_v68_apply]
  unfold val_main_v67
  rw [scalar_read, val_main_v66_apply]
  have e : idx_main_v66 (ix1 0) = ix1 3 := funext fun a => Fin.ext (by match a with | ⟨0, _⟩ => rfl)
  rw [e, v9_read]

/-- The 3-th weighted term at row `r` and column `c`: the probability times the rectified affine value of the masked row. -/
theorem term_3 (x : (⟨S4096x2048, .f32⟩ : BufTy).Contents (Elt Ideal)) (mask : (⟨S4096, .i1⟩ : BufTy).Contents (Elt Ideal))
    (al : (⟨S8, .f32⟩ : BufTy).Contents (Elt Ideal)) (W : (⟨S8x2048x2048, .f32⟩ : BufTy).Contents (Elt Ideal))
    (b : (⟨S8x2048, .f32⟩ : BufTy).Contents (Elt Ideal)) (r : Fin 4096) (c : Fin 2048) :
    val_main_v69 (F := Ideal) x mask al W b (ix2 r c)
      = rterm (fun l => al (ix1 l)) 3 (fun k => x (ix2 r k)) (fun k => W (ix3 3 k c)) (mask (ix1 r)) (b (ix2 3 c)) := by
  rw [val_main_v69_apply, p_3, val_main_v65_apply, val_main_v64_apply, b_3, val_main_v59_apply, val_main_call3_v0_apply,
    val_main_call3_cst_apply]
  have el : ∀ k, lidx_main_v59 (ix2 r c) k = ix2 r k := fun k => funext fun a => Fin.ext (by
    match a with
    | ⟨0, _⟩ => rfl
    | ⟨1, _⟩ => rfl)
  have er : ∀ k, ridx_main_v59 (ix2 r c) k = ix2 k c := fun k => funext fun a => Fin.ext (by
    match a with
    | ⟨0, _⟩ => rfl
    | ⟨1, _⟩ => rfl)
  simp only [el, er, v13_read, W_3, Ideal.mulf_def, Ideal.addf_def, Ideal.maximumf_def, Ideal.ofBits_def,
    Ideal.ofBits_zero_f32]
  rfl

/-! ### Candidate 4: its weight slice, its bias row, its probability, its weighted rectified term -/

/-- The 4-th slice of the weights, seen as a matrix, at row `k` and column `c`. -/
theorem W_4 (W : (⟨S8x2048x2048, .f32⟩ : BufTy).Contents (Elt Ideal)) (k c : Fin 2048) :
    val_main_v72 (F := Ideal) W (ix2 k c) = W (ix3 4 k c) := by
  rw [val_main_v72_apply, val_main_v71_apply]
  have hk := k.isLt
  have hc := c.isLt
  exact congrArg W (funext fun a => Fin.ext (by
    match a with
    | ⟨0, _⟩ => rfl
    | ⟨1, _⟩ => show (k.val * 2048 + c.val) / 2048 % 2048 = k.val; omega
    | ⟨2, _⟩ => show (k.val * 2048 + c.val) % 2048 = c.val; omega))

/-- The 4-th bias row, spread over every row of the result, at column `c`. -/
theorem b_4 (b : (⟨S8x2048, .f32⟩ : BufTy).Contents (Elt Ideal)) (r : Fin 4096) (c : Fin 2048) :
    val_main_v77 (F := Ideal) b (ix2 r c) = b (ix2 4 c) := by
  rw [val_main_v77_apply, val_main_v76_apply, val_main_v75_apply, val_main_v74_apply]
  have hc := c.isLt
  exact congrArg b (funext fun a => Fin.ext (by
    match a with
    | ⟨0, _⟩ => rfl
    | ⟨1, _⟩ => show c.val % 2048 = c.val; omega))

/-- The 4-th softmax probability, spread over the whole result. -/
theorem p_4 (al : (⟨S8, .f32⟩ : BufTy).Contents (Elt Ideal)) (j : S4096x2048.Idx) :
    val_main_v82 (F := Ideal) al j = prob (fun l => al (ix1 l)) 4 := by
  rw [val_main_v82_apply]
  unfold val_main_v81
  rw [scalar_read, val_main_v80_apply]
  have e : idx_main_v80 (ix1 0) = ix1 4 := funext fun a => Fin.ext (by match a with | ⟨0, _⟩ => rfl)
  rw [e, v9_read]

/-- The 4-th weighted term at row `r` and column `c`: the probability times the rectified affine value of the masked row. -/
theorem term_4 (x : (⟨S4096x2048, .f32⟩ : BufTy).Contents (Elt Ideal)) (mask : (⟨S4096, .i1⟩ : BufTy).Contents (Elt Ideal))
    (al : (⟨S8, .f32⟩ : BufTy).Contents (Elt Ideal)) (W : (⟨S8x2048x2048, .f32⟩ : BufTy).Contents (Elt Ideal))
    (b : (⟨S8x2048, .f32⟩ : BufTy).Contents (Elt Ideal)) (r : Fin 4096) (c : Fin 2048) :
    val_main_v83 (F := Ideal) x mask al W b (ix2 r c)
      = rterm (fun l => al (ix1 l)) 4 (fun k => x (ix2 r k)) (fun k => W (ix3 4 k c)) (mask (ix1 r)) (b (ix2 4 c)) := by
  rw [val_main_v83_apply, p_4, val_main_v79_apply, val_main_v78_apply, b_4, val_main_v73_apply, val_main_call4_v0_apply,
    val_main_call4_cst_apply]
  have el : ∀ k, lidx_main_v73 (ix2 r c) k = ix2 r k := fun k => funext fun a => Fin.ext (by
    match a with
    | ⟨0, _⟩ => rfl
    | ⟨1, _⟩ => rfl)
  have er : ∀ k, ridx_main_v73 (ix2 r c) k = ix2 k c := fun k => funext fun a => Fin.ext (by
    match a with
    | ⟨0, _⟩ => rfl
    | ⟨1, _⟩ => rfl)
  simp only [el, er, v13_read, W_4, Ideal.mulf_def, Ideal.addf_def, Ideal.maximumf_def, Ideal.ofBits_def,
    Ideal.ofBits_zero_f32]
  rfl

/-! ### Candidate 5: its weight slice, its bias row, its probability, its weighted rectified term -/

/-- The 5-th slice of the weights, seen as a matrix, at row `k` and column `c`. -/
theorem W_5 (W : (⟨S8x2048x2048, .f32⟩ : BufTy).Contents (Elt Ideal)) (k c : Fin 2048) :
    val_main_v86 (F := Ideal) W (ix2 k c) = W (ix3 5 k c) := by
  rw [val_main_v86_apply, val_main_v85_apply]
  have hk := k.isLt
  have hc := c.isLt
  exact congrArg W (funext fun a => Fin.ext (by
    match a with
    | ⟨0, _⟩ => rfl
    | ⟨1, _⟩ => show (k.val * 2048 + c.val) / 2048 % 2048 = k.val; omega
    | ⟨2, _⟩ => show (k.val * 2048 + c.val) % 2048 = c.val; omega))

/-- The 5-th bias row, spread over every row of the result, at column `c`. -/
theorem b_5 (b : (⟨S8x2048, .f32⟩ : BufTy).Contents (Elt Ideal)) (r : Fin 4096) (c : Fin 2048) :
    val_main_v91 (F := Ideal) b (ix2 r c) = b (ix2 5 c) := by
  rw [val_main_v91_apply, val_main_v90_apply, val_main_v89_apply, val_main_v88_apply]
  have hc := c.isLt
  exact congrArg b (funext fun a => Fin.ext (by
    match a with
    | ⟨0, _⟩ => rfl
    | ⟨1, _⟩ => show c.val % 2048 = c.val; omega))

/-- The 5-th softmax probability, spread over the whole result. -/
theorem p_5 (al : (⟨S8, .f32⟩ : BufTy).Contents (Elt Ideal)) (j : S4096x2048.Idx) :
    val_main_v96 (F := Ideal) al j = prob (fun l => al (ix1 l)) 5 := by
  rw [val_main_v96_apply]
  unfold val_main_v95
  rw [scalar_read, val_main_v94_apply]
  have e : idx_main_v94 (ix1 0) = ix1 5 := funext fun a => Fin.ext (by match a with | ⟨0, _⟩ => rfl)
  rw [e, v9_read]

/-- The 5-th weighted term at row `r` and column `c`: the probability times the rectified affine value of the masked row. -/
theorem term_5 (x : (⟨S4096x2048, .f32⟩ : BufTy).Contents (Elt Ideal)) (mask : (⟨S4096, .i1⟩ : BufTy).Contents (Elt Ideal))
    (al : (⟨S8, .f32⟩ : BufTy).Contents (Elt Ideal)) (W : (⟨S8x2048x2048, .f32⟩ : BufTy).Contents (Elt Ideal))
    (b : (⟨S8x2048, .f32⟩ : BufTy).Contents (Elt Ideal)) (r : Fin 4096) (c : Fin 2048) :
    val_main_v97 (F := Ideal) x mask al W b (ix2 r c)
      = rterm (fun l => al (ix1 l)) 5 (fun k => x (ix2 r k)) (fun k => W (ix3 5 k c)) (mask (ix1 r)) (b (ix2 5 c)) := by
  rw [val_main_v97_apply, p_5, val_main_v93_apply, val_main_v92_apply, b_5, val_main_v87_apply, val_main_call5_v0_apply,
    val_main_call5_cst_apply]
  have el : ∀ k, lidx_main_v87 (ix2 r c) k = ix2 r k := fun k => funext fun a => Fin.ext (by
    match a with
    | ⟨0, _⟩ => rfl
    | ⟨1, _⟩ => rfl)
  have er : ∀ k, ridx_main_v87 (ix2 r c) k = ix2 k c := fun k => funext fun a => Fin.ext (by
    match a with
    | ⟨0, _⟩ => rfl
    | ⟨1, _⟩ => rfl)
  simp only [el, er, v13_read, W_5, Ideal.mulf_def, Ideal.addf_def, Ideal.maximumf_def, Ideal.ofBits_def,
    Ideal.ofBits_zero_f32]
  rfl

/-! ### Candidate 6: its weight slice, its bias row, its probability, its weighted rectified term -/

/-- The 6-th slice of the weights, seen as a matrix, at row `k` and column `c`. -/
theorem W_6 (W : (⟨S8x2048x2048, .f32⟩ : BufTy).Contents (Elt Ideal)) (k c : Fin 2048) :
    val_main_v100 (F := Ideal) W (ix2 k c) = W (ix3 6 k c) := by
  rw [val_main_v100_apply, val_main_v99_apply]
  have hk := k.isLt
  have hc := c.isLt
  exact congrArg W (funext fun a => Fin.ext (by
    match a with
    | ⟨0, _⟩ => rfl
    | ⟨1, _⟩ => show (k.val * 2048 + c.val) / 2048 % 2048 = k.val; omega
    | ⟨2, _⟩ => show (k.val * 2048 + c.val) % 2048 = c.val; omega))

/-- The 6-th bias row, spread over every row of the result, at column `c`. -/
theorem b_6 (b : (⟨S8x2048, .f32⟩ : BufTy).Contents (Elt Ideal)) (r : Fin 4096) (c : Fin 2048) :
    val_main_v105 (F := Ideal) b (ix2 r c) = b (ix2 6 c) := by
  rw [val_main_v105_apply, val_main_v104_apply, val_main_v103_apply, val_main_v102_apply]
  have hc := c.isLt
  exact congrArg b (funext fun a => Fin.ext (by
    match a with
    | ⟨0, _⟩ => rfl
    | ⟨1, _⟩ => show c.val % 2048 = c.val; omega))

/-- The 6-th softmax probability, spread over the whole result. -/
theorem p_6 (al : (⟨S8, .f32⟩ : BufTy).Contents (Elt Ideal)) (j : S4096x2048.Idx) :
    val_main_v110 (F := Ideal) al j = prob (fun l => al (ix1 l)) 6 := by
  rw [val_main_v110_apply]
  unfold val_main_v109
  rw [scalar_read, val_main_v108_apply]
  have e : idx_main_v108 (ix1 0) = ix1 6 := funext fun a => Fin.ext (by match a with | ⟨0, _⟩ => rfl)
  rw [e, v9_read]

/-- The 6-th weighted term at row `r` and column `c`: the probability times the rectified affine value of the masked row. -/
theorem term_6 (x : (⟨S4096x2048, .f32⟩ : BufTy).Contents (Elt Ideal)) (mask : (⟨S4096, .i1⟩ : BufTy).Contents (Elt Ideal))
    (al : (⟨S8, .f32⟩ : BufTy).Contents (Elt Ideal)) (W : (⟨S8x2048x2048, .f32⟩ : BufTy).Contents (Elt Ideal))
    (b : (⟨S8x2048, .f32⟩ : BufTy).Contents (Elt Ideal)) (r : Fin 4096) (c : Fin 2048) :
    val_main_v111 (F := Ideal) x mask al W b (ix2 r c)
      = rterm (fun l => al (ix1 l)) 6 (fun k => x (ix2 r k)) (fun k => W (ix3 6 k c)) (mask (ix1 r)) (b (ix2 6 c)) := by
  rw [val_main_v111_apply, p_6, val_main_v107_apply, val_main_v106_apply, b_6, val_main_v101_apply, val_main_call6_v0_apply,
    val_main_call6_cst_apply]
  have el : ∀ k, lidx_main_v101 (ix2 r c) k = ix2 r k := fun k => funext fun a => Fin.ext (by
    match a with
    | ⟨0, _⟩ => rfl
    | ⟨1, _⟩ => rfl)
  have er : ∀ k, ridx_main_v101 (ix2 r c) k = ix2 k c := fun k => funext fun a => Fin.ext (by
    match a with
    | ⟨0, _⟩ => rfl
    | ⟨1, _⟩ => rfl)
  simp only [el, er, v13_read, W_6, Ideal.mulf_def, Ideal.addf_def, Ideal.maximumf_def, Ideal.ofBits_def,
    Ideal.ofBits_zero_f32]
  rfl

/-! ### Candidate 7: its weight slice, its bias row, its probability, its weighted rectified term -/

/-- The 7-th slice of the weights, seen as a matrix, at row `k` and column `c`. -/
theorem W_7 (W : (⟨S8x2048x2048, .f32⟩ : BufTy).Contents (Elt Ideal)) (k c : Fin 2048) :
    val_main_v114 (F := Ideal) W (ix2 k c) = W (ix3 7 k c) := by
  rw [val_main_v114_apply, val_main_v113_apply]
  have hk := k.isLt
  have hc := c.isLt
  exact congrArg W (funext fun a => Fin.ext (by
    match a with
    | ⟨0, _⟩ => rfl
    | ⟨1, _⟩ => show (k.val * 2048 + c.val) / 2048 % 2048 = k.val; omega
    | ⟨2, _⟩ => show (k.val * 2048 + c.val) % 2048 = c.val; omega))

/-- The 7-th bias row, spread over every row of the result, at column `c`. -/
theorem b_7 (b : (⟨S8x2048, .f32⟩ : BufTy).Contents (Elt Ideal)) (r : Fin 4096) (c : Fin 2048) :
    val_main_v119 (F := Ideal) b (ix2 r c) = b (ix2 7 c) := by
  rw [val_main_v119_apply, val_main_v118_apply, val_main_v117_apply, val_main_v116_apply]
  have hc := c.isLt
  exact congrArg b (funext fun a => Fin.ext (by
    match a with
    | ⟨0, _⟩ => rfl
    | ⟨1, _⟩ => show c.val % 2048 = c.val; omega))

/-- The 7-th softmax probability, spread over the whole result. -/
theorem p_7 (al : (⟨S8, .f32⟩ : BufTy).Contents (Elt Ideal)) (j : S4096x2048.Idx) :
    val_main_v124 (F := Ideal) al j = prob (fun l => al (ix1 l)) 7 := by
  rw [val_main_v124_apply]
  unfold val_main_v123
  rw [scalar_read, val_main_v122_apply]
  have e : idx_main_v122 (ix1 0) = ix1 7 := funext fun a => Fin.ext (by match a with | ⟨0, _⟩ => rfl)
  rw [e, v9_read]

/-- The 7-th weighted term at row `r` and column `c`: the probability times the rectified affine value of the masked row. -/
theorem term_7 (x : (⟨S4096x2048, .f32⟩ : BufTy).Contents (Elt Ideal)) (mask : (⟨S4096, .i1⟩ : BufTy).Contents (Elt Ideal))
    (al : (⟨S8, .f32⟩ : BufTy).Contents (Elt Ideal)) (W : (⟨S8x2048x2048, .f32⟩ : BufTy).Contents (Elt Ideal))
    (b : (⟨S8x2048, .f32⟩ : BufTy).Contents (Elt Ideal)) (r : Fin 4096) (c : Fin 2048) :
    val_main_v125 (F := Ideal) x mask al W b (ix2 r c)
      = rterm (fun l => al (ix1 l)) 7 (fun k => x (ix2 r k)) (fun k => W (ix3 7 k c)) (mask (ix1 r)) (b (ix2 7 c)) := by
  rw [val_main_v125_apply, p_7, val_main_v121_apply, val_main_v120_apply, b_7, val_main_v115_apply, val_main_call7_v0_apply,
    val_main_call7_cst_apply]
  have el : ∀ k, lidx_main_v115 (ix2 r c) k = ix2 r k := fun k => funext fun a => Fin.ext (by
    match a with
    | ⟨0, _⟩ => rfl
    | ⟨1, _⟩ => rfl)
  have er : ∀ k, ridx_main_v115 (ix2 r c) k = ix2 k c := fun k => funext fun a => Fin.ext (by
    match a with
    | ⟨0, _⟩ => rfl
    | ⟨1, _⟩ => rfl)
  simp only [el, er, v13_read, W_7, Ideal.mulf_def, Ideal.addf_def, Ideal.maximumf_def, Ideal.ofBits_def,
    Ideal.ofBits_zero_f32]
  rfl

/-! ## The whole result -/

/-- The reference's result, as a function of the argument arrays, is the specification's `Gr` at every row and column: the
    eight weighted terms added in order to a zero array are their sum. -/
theorem ref_value (x : (⟨S4096x2048, .f32⟩ : BufTy).Contents (Elt Ideal)) (mask : (⟨S4096, .i1⟩ : BufTy).Contents (Elt Ideal))
    (al : (⟨S8, .f32⟩ : BufTy).Contents (Elt Ideal)) (W : (⟨S8x2048x2048, .f32⟩ : BufTy).Contents (Elt Ideal))
    (b : (⟨S8x2048, .f32⟩ : BufTy).Contents (Elt Ideal)) :
    val_main_v126 (F := Ideal) x mask al W b = fun j => Gr x mask al W b (j 0) (j 1) := by
  funext j
  obtain ⟨r, c, rfl⟩ : ∃ r c, j = ix2 r c := ⟨j 0, j 1, eq_ix2 j⟩
  rw [val_main_v126_apply, val_main_v112_apply, val_main_v98_apply, val_main_v84_apply, val_main_v70_apply, val_main_v56_apply, val_main_v42_apply, val_main_v28_apply, val_main_v14_apply, val_main_cst_2_apply,
    term_0, term_1, term_2, term_3, term_4, term_5, term_6, term_7]
  simp only [Ideal.addf_def, Ideal.ofBits_def, Ideal.ofBits_zero_f32, zero_add]
  show _ = Gr x mask al W b r c
  unfold Gr
  rw [Fin.sum_univ_eight]

/-- The reference runs, ends with its result at `Gr` of its argument arrays, and leaves the arguments unchanged. -/
theorem ref_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v126) = (fun j => Cert.MixedOp.Gr (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (j 0) (j 1))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) :=
  (θ_run Cert.ReferenceIdeal.defs _ _).mono
    (fun _ h c => ⟨(h c).1.trans ((val_main_v126_eq m' c).trans (ref_value _ _ _ _ _)), (h c).2⟩)
    (Cert.ReferenceIdeal.Value.run (F := Ideal) m' g')

/-- The reference runs and leaves its arguments unchanged. -/
theorem frame_ri [hP : Cert.Pre_finite_inputs.Facts] : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.SpecLaw.lean ====
/-
  The two arrangements of the mixed operation agree wherever every entry is a real number.

  With all eight logits real their largest is real, every shifted exponential is the coercion of a positive
  real, so is their sum, and each softmax probability is the coercion of a nonnegative real.  With the
  probability a nonnegative real p, the mask a real m, and all entries of the row, the column and the bias real,
  both arrangements are coercions of reals and the identity
      max ((Σ_k x_k w_k) · (m · p) + p · b, 0) = p · max ((Σ_k (x_k · m) · w_k) + b, 0)
  holds over the reals: a nonnegative factor passes through the maximum with zero, and multiplication
  distributes over the finite sum.
-/
import proofs.«163268_g51634096833270_cont_9to1_m_282_29_alg».proof.Proof.Spec
import Mathlib.Data.EReal.Operations
import Mathlib.Order.Lattice
import Mathlib.Algebra.Order.Ring.Unbundled.Basic
import Mathlib.Algebra.Order.BigOperators.Ring.Finset
import Mathlib.Algebra.BigOperators.Ring.Finset
import Mathlib.Analysis.SpecialFunctions.Exp

noncomputable section

open scoped BigOperators

namespace Cert.MixedOp

open Idealize.ShloMosaic Idealize.ShloMosaic.ValueIdx

/-- A finite sum of coerced reals is the coercion of the real sum. -/
theorem coe_sum_real {ι : Type} (s : Finset ι) (f : ι → ℝ) :
    (∑ j ∈ s, (f j : EReal)) = ((∑ j ∈ s, f j : ℝ) : EReal) := by
  classical
  induction s using Finset.induction_on with
  | empty => simp
  | insert j s hj ih => rw [Finset.sum_insert hj, Finset.sum_insert hj, ih, EReal.coe_add]

/-- The coercion of the reals commutes with the binary maximum. -/
theorem coe_max_real (u v : ℝ) : ((max u v : ℝ) : EReal) = max (u : EReal) (v : EReal) :=
  Monotone.map_max EReal.coe_strictMono.monotone

/-- With real logits the largest logit is one of them, hence real. -/
theorem amax_real (a : Fin 8 → EReal) (ha : AllReal a) : ∃ m : ℝ, amax a = (m : EReal) := by
  obtain ⟨j, -, hj⟩ := Finset.exists_mem_eq_sup Finset.univ Finset.univ_nonempty a
  obtain ⟨v, hv⟩ := ha j
  exact ⟨v, by rw [amax, hj, hv]⟩

/-- With real logits every shifted exponential is the coercion of a positive real. -/
theorem sexp_real (a : Fin 8 → EReal) (ha : AllReal a) (l : Fin 8) :
    ∃ e : ℝ, 0 < e ∧ sexp a l = (e : EReal) := by
  obtain ⟨m, hm⟩ := amax_real a ha
  obtain ⟨v, hv⟩ := ha l
  refine ⟨Real.exp (v - m), Real.exp_pos _, ?_⟩
  rw [sexp, hm, hv, ← EReal.coe_sub]
  rfl

theorem prob_real (a : Fin 8 → EReal) (ha : AllReal a) (i : Fin 8) :
    ∃ p : ℝ, 0 ≤ p ∧ prob a i = (p : EReal) := by
  choose e he0 he using sexp_real a ha
  have hS : 0 < ∑ l, e l := Finset.sum_pos (fun l _ => he0 l) Finset.univ_nonempty
  refine ⟨e i * (1 / ∑ l, e l), mul_nonneg (he0 i).le (one_div_pos.mpr hS).le, ?_⟩
  have hsum : (∑ l, sexp a l) = ((∑ l, e l : ℝ) : EReal) := by
    rw [← coe_sum_real]
    exact Finset.sum_congr rfl (fun l _ => he l)
  rw [prob, hsum, Ideal.div_coe hS.ne', he i, ← EReal.coe_mul]

/-- The identity over the reals: a nonnegative weight passes through the rectification, and the mask factor
    passes through the sum of products. -/
theorem real_arrangement (n : ℕ) (x w : Fin n → ℝ) (m p b : ℝ) (hp : 0 ≤ p) :
    max ((∑ k, x k * w k) * (m * p) + p * b) 0 = p * max ((∑ k, (x k * m) * w k) + b) 0 := by
  rw [mul_max_of_nonneg _ _ hp, mul_zero]
  have h : (∑ k, (x k * m) * w k) = m * ∑ k, x k * w k := by
    rw [Finset.mul_sum]
    exact Finset.sum_congr rfl (fun k _ => by ring)
  rw [h]
  congr 1
  ring

/-- A mask bit's number is the coercion of a real. -/
theorem maskNum_real (mb : BitVec 1) : ∃ m : ℝ, maskNum mb = (m : EReal) := by
  unfold maskNum
  split
  · exact ⟨1, EReal.coe_one.symm⟩
  · exact ⟨0, EReal.coe_zero.symm⟩

theorem kterm_eq_rterm (a : Fin 8 → EReal) (ha : AllReal a) (i : Fin 8) (xrow wcol : Fin 2048 → EReal)
    (hx : AllReal xrow) (hw : AllReal wcol) (mb : BitVec 1) (bias : EReal)
    (hb : ∃ v : ℝ, bias = (v : EReal)) :
    kterm a i xrow wcol mb bias = rterm a i xrow wcol mb bias := by
  obtain ⟨p, hp0, hp⟩ := prob_real a ha i
  obtain ⟨m, hm⟩ := maskNum_real mb
  obtain ⟨v, rfl⟩ := hb
  choose xr hxr using hx
  choose wr hwr using hw
  obtain rfl : xrow = fun k => (xr k : EReal) := funext hxr
  obtain rfl : wcol = fun k => (wr k : EReal) := funext hwr
  have hz : (0 : EReal) = ((0 : ℝ) : EReal) := EReal.coe_zero.symm
  unfold kterm rterm
  rw [hp, hm, hz]
  simp only [← EReal.coe_mul, coe_sum_real, ← EReal.coe_add, ← coe_max_real]
  rw [real_arrangement 2048 xr wr m p v hp0]

theorem Gk_eq_Gr (x : (⟨2, ![4096, 2048]⟩ : Shape).Idx → EReal) (mask : (⟨1, ![4096]⟩ : Shape).Idx → BitVec 1)
    (al : (⟨1, ![8]⟩ : Shape).Idx → EReal) (W : (⟨3, ![8, 2048, 2048]⟩ : Shape).Idx → EReal)
    (b : (⟨2, ![8, 2048]⟩ : Shape).Idx → EReal)
    (hx : AllReal x) (hal : AllReal al) (hW : AllReal W) (hb : AllReal b) (r : Fin 4096) (c : Fin 2048) :
    Gk x mask al W b r c = Gr x mask al W b r c := by
  unfold Gk Gr
  refine Finset.sum_congr rfl (fun i _ => ?_)
  exact kterm_eq_rterm _ (fun l => hal (ix1 l)) i _ _ (fun k => hx (ix2 r k)) (fun k => hW (ix3 i k c))
    _ _ (hb (ix2 i c))

end Cert.MixedOp

end
-- ==== Proof.PreFinite.lean ====
/-
  From the precondition to finiteness. The printed predicate is the conjunction, over the four float argument
  arrays, of "every entry x satisfies |x| < +∞", each conjunct a reduction by `and` over all axes of the array of
  comparison bits. Read back entry by entry it says that no entry is +∞ or −∞, so every entry is a real number.
-/
import proofs.«163268_g51634096833270_cont_9to1_m_282_29_alg».proof.Defs
import proofs.«163268_g51634096833270_cont_9to1_m_282_29_alg».proof.Proof.Spec
import Idealize.ShloMosaic.Lib.ReduceAll

noncomputable section

namespace Cert.KernelIdeal.PreFinite

open Idealize.ShloMosaic Idealize.SL.Sem Cert.MixedOp

/-- The rank-0 shape has exactly one index. -/
instance : Subsingleton Cert.Pre_finite_inputs.S_.Idx := ⟨fun a b => funext fun d => d.elim0⟩

/-- The word 0x7F800000 denotes +∞. -/
theorem inf_word : Ideal.ofBits .f32 0x7F800000#32 = (⊤ : EReal) := by
  simp [Ideal.ofBits, Ideal.ieee]

/-- An extended real whose absolute value max x (−x) lies strictly below +∞ is a real number. -/
theorem real_of_abs_lt (x : EReal)
    (h : Ideal.cmp .olt (max x (-x)) (Ideal.ofBits .f32 0x7F800000#32) = 1#1) : ∃ v : ℝ, x = (v : EReal) := by
  rw [inf_word] at h
  induction x using EReal.rec with
  | bot => simp [Ideal.cmp] at h
  | coe v => exact ⟨v, rfl⟩
  | top => simp [Ideal.cmp] at h

/-- One conjunct read back: an array whose comparison bits |x j| < +∞ reduce by `and`, over all axes, to one
    has only real entries. -/
theorem allReal_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hS : 0 < Cert.Pre_finite_inputs.S_.numel)
    (e : Host.reduce IntOp.andi
          (cmpf .olt (Host.absf x) (broadcastInDim s ![] hb (constant (F := Ideal) Cert.Pre_finite_inputs.S_ .f32 0x7F800000#32)))
          (constantI Cert.Pre_finite_inputs.S_ 1 1#1) hr hS ValueIdx.ix0 = 1#1) :
    AllReal x := by
  intro j
  have hj := Host.reduce_andi_all _ _ hr hS ValueIdx.ix0 e j
  exact real_of_abs_lt (x j) hj

/-- The precondition of the idealized kernel makes every float argument array an array of real numbers. -/
theorem allReal_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    AllReal (m ((c.tc : Thread Cert.KernelIdeal.nD Cert.KernelIdeal.τ).loc Cert.KernelIdeal.main_arg0))
    ∧ AllReal (m ((c.tc : Thread Cert.KernelIdeal.nD Cert.KernelIdeal.τ).loc Cert.KernelIdeal.main_arg2))
    ∧ AllReal (m ((c.tc : Thread Cert.KernelIdeal.nD Cert.KernelIdeal.τ).loc Cert.KernelIdeal.main_arg3))
    ∧ AllReal (m ((c.tc : Thread Cert.KernelIdeal.nD Cert.KernelIdeal.τ).loc Cert.KernelIdeal.main_arg4)) := by
  have h0 := congrFun (h c) ValueIdx.ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨allReal_of_all _ _ _ _ h1, allReal_of_all _ _ _ _ h2, allReal_of_all _ _ _ _ h3, allReal_of_all _ _ _ _ h4⟩

end Cert.KernelIdeal.PreFinite

end
-- ==== Proof.lean ====
/-
  The certificate of the mixed-operation kernel against its reference, over the extended reals.

  Both programs compute, for a row r and a column c,
      out r c = Σ_i  p_i · max ((Σ_k (x r k · μ r) · W i k c) + b i c, 0),
  with p the softmax of the eight logits and μ the row mask as a number. The kernel applies the mask and the
  probability after the matrix product and inside the rectification, accumulating the eight terms in its output
  tile; over finite inputs p_i is a nonnegative real and every entry is real, so the two arrangements agree term
  by term (a nonnegative factor passes through `max · 0`, multiplication distributes over the finite sums).

  The three frames: the kernel program's (at both instances) by running its body at every grid point, the output
  tile accumulated over the eight operations of a column block; the reference's by its run. The idealization
  rewrote nothing, so `preserves` is trivial.
-/
import proofs.«163268_g51634096833270_cont_9to1_m_282_29_alg».proof.Defs
import proofs.«163268_g51634096833270_cont_9to1_m_282_29_alg».proof.Proof.Gen.Kernel
import proofs.«163268_g51634096833270_cont_9to1_m_282_29_alg».proof.Proof.Gen.KernelIdeal
import proofs.«163268_g51634096833270_cont_9to1_m_282_29_alg».proof.Proof.Gen.ReferenceIdeal
import proofs.«163268_g51634096833270_cont_9to1_m_282_29_alg».proof.Proof.Gen.Pre_finite_inputs
import proofs.«163268_g51634096833270_cont_9to1_m_282_29_alg».proof.Proof.KFrame
import proofs.«163268_g51634096833270_cont_9to1_m_282_29_alg».proof.Proof.KIValue
import proofs.«163268_g51634096833270_cont_9to1_m_282_29_alg».proof.Proof.RefValue
import proofs.«163268_g51634096833270_cont_9to1_m_282_29_alg».proof.Proof.SpecLaw
import proofs.«163268_g51634096833270_cont_9to1_m_282_29_alg».proof.Proof.PreFinite
import Idealize.ShloMosaic.Adequacy
import Idealize.ShloMosaic.Init

noncomputable section

namespace Cert.Proof

open Idealize.ShloMosaic Idealize.SL.Sem

/-- The kernel program as printed runs to its end and leaves its arguments unchanged. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- And the reference. -/
theorem frame_ri : Cert.frame_ReferenceIdeal := Cert.ReferenceIdeal.RefValue.frame_ri

/-- From memories agreeing on the arguments the idealized kernel ends at the kernel's arrangement of the mixed
    operation and the idealized reference at the reference's arrangement; over finite inputs they are one array. -/
theorem algebraic : Cert.algebraic_KernelIdeal_ReferenceIdeal := by
  intro m ρ m' ρ' hpre hagree
  refine ⟨fun c => Cert.KernelIdeal.Val.G m c, Cert.KernelIdeal.Val.run m ρ, ?_⟩
  refine (θ_run Cert.ReferenceIdeal.defs _ _).mono (fun r h c => ⟨(h c).1.trans ?_, (h c).2⟩)
    (Cert.ReferenceIdeal.RefValue.ref_run m' ρ')
  obtain ⟨h0, h2, h3, h4⟩ := Cert.KernelIdeal.PreFinite.allReal_of_pre m hpre c
  rw [(hagree c).1, (hagree c).2.1, (hagree c).2.2.1, (hagree c).2.2.2.1, (hagree c).2.2.2.2]
  funext j
  exact (Cert.MixedOp.Gk_eq_Gr _ _ _ _ _ h0 h2 h3 h4 (j 0) (j 1)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
